-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x92 : Shape := ⟨3, ![16, 900, 92]⟩
abbrev S16x900x4 : Shape := ⟨3, ![16, 900, 4]⟩
abbrev S1600 : Shape := ⟨1, ![1600]⟩
abbrev S1600x4 : Shape := ⟨2, ![1600, 4]⟩
abbrev S_ : Shape := ⟨0, ![]⟩

class Facts : Prop where
  bcast_S_S16x900x92 : S_.BroadcastsInDim S16x900x92 (![] : Fin 0 → Fin S16x900x92.rank)
  reducesTo_S16x900x92_S_d0_1_2 : S16x900x92.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S1600x4 : S_.BroadcastsInDim S1600x4 (![] : Fin 0 → Fin S1600x4.rank)
  reducesTo_S1600x4_S_d0_1 : S1600x4.ReducesTo [0, 1] S_
  bcast_S_S1600 : S_.BroadcastsInDim S1600 (![] : Fin 0 → Fin S1600.rank)
  reducesTo_S1600_S_d0 : S1600.ReducesTo [0] S_

variable [Facts]

def fn_part1 {F : FTy → Type} [FloatOps F] (main_arg2 : IVec S1600 32) (main_v13 : IVec S_ 1) (main_v15 : IVec S1600 1) (main_c_5 : IVec S_ 32) : IVec S_ 1 :=
  let main_v16 : IVec S1600 32 := broadcastInDim S1600 ![] bcast_S_S1600 main_c_5
  let main_v17 : IVec S1600 1 := cmpi .slt main_arg2 main_v16
  let main_v18 : IVec S1600 1 := andi main_v15 main_v17
  let main_c_6 : IVec S_ 1 := constantI S_ 1 1#1
  let main_v19 : IVec S_ 1 := (fun x v => Host.reduce IntOp.andi x v reducesTo_S1600_S_d0 h_S_) main_v18 main_c_6
  let main_v20 : IVec S_ 1 := andi main_v13 main_v19
  main_v20

def fn {F : FTy → Type} [FloatOps F] (main_arg0 : FVec F S16x900x92 .f32) (main_arg1 : FVec F S16x900x4 .f32) (main_arg2 : IVec S1600 32) (main_arg3 : FVec F S1600x4 .f32) : IVec S_ 1 :=
  let main_v0 : FVec F S16x900x92 .f32 := Host.absf main_arg0
  let main_cst : FVec F S_ .f32 := constant S_ .f32 0x7F800000#32
  let main_v1 : FVec F S16x900x92 .f32 := broadcastInDim S16x900x92 ![] bcast_S_S16x900x92 main_cst
  let main_v2 : IVec S16x900x92 1 := cmpf .olt main_v0 main_v1
  let main_c : IVec S_ 1 := constantI S_ 1 1#1
  let main_v3 : IVec S_ 1 := (fun x v => Host.reduce IntOp.andi x v reducesTo_S16x900x92_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S1600x4 .f32 := Host.absf main_arg3
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  let main_c_4 : IVec S_ 32 := constantI S_ 32 0#32
  let main_v14 : IVec S1600 32 := broadcastInDim S1600 ![] bcast_S_S1600 main_c_4
  let main_v15 : IVec S1600 1 := cmpi .sge main_arg2 main_v14
  let main_c_5 : IVec S_ 32 := constantI S_ 32 92#32
  fn_part1 (F := F) main_arg2 main_v13 main_v15 main_c_5
-- ==== Kernel.lean ====
abbrev S16x900x92 : Shape := ⟨3, ![16, 900, 92]⟩
abbrev S16x900x4 : Shape := ⟨3, ![16, 900, 4]⟩
abbrev S1600 : Shape := ⟨1, ![1600]⟩
abbrev S1600x4 : Shape := ⟨2, ![1600, 4]⟩
abbrev S14400x92 : Shape := ⟨2, ![14400, 92]⟩
abbrev S14400x4 : Shape := ⟨2, ![14400, 4]⟩
abbrev S92 : Shape := ⟨1, ![92]⟩
abbrev S92x1 : Shape := ⟨2, ![92, 1]⟩
abbrev S1x1600 : Shape := ⟨2, ![1, 1600]⟩
abbrev S92x1600 : Shape := ⟨2, ![92, 1600]⟩
abbrev S1600x1 : Shape := ⟨2, ![1600, 1]⟩
abbrev S_ : Shape := ⟨0, ![]⟩
abbrev S4x1600 : Shape := ⟨2, ![4, 1600]⟩
abbrev S14400x1600 : Shape := ⟨2, ![14400, 1600]⟩
abbrev S480x92 : Shape := ⟨2, ![480, 92]⟩
abbrev S480x4 : Shape := ⟨2, ![480, 4]⟩
abbrev S480x1600 : Shape := ⟨2, ![480, 1600]⟩
abbrev S480 : Shape := ⟨1, ![480]⟩
abbrev S480x1 : Shape := ⟨2, ![480, 1]⟩
abbrev S16x900x1600 : Shape := ⟨3, ![16, 900, 1600]⟩

abbrev nBuf : Space → Nat
  | .hbm => 46
  | .vmem => 9
  | .smem => 0
  | _ => 0

abbrev bufTy : (tb : Table) → Fin (tcTables nBuf tb) → BufTy
  | .hbm, ⟨0, _⟩ => ⟨S16x900x92, .f32⟩
  | .hbm, ⟨1, _⟩ => ⟨S16x900x4, .f32⟩
  | .hbm, ⟨2, _⟩ => ⟨S1600, .i32⟩
  | .hbm, ⟨3, _⟩ => ⟨S1600x4, .f32⟩
  | .hbm, ⟨4, _⟩ => ⟨S14400x92, .f32⟩
  | .hbm, ⟨5, _⟩ => ⟨S14400x4, .f32⟩
  | .hbm, ⟨6, _⟩ => ⟨S92, .i32⟩
  | .hbm, ⟨7, _⟩ => ⟨S92x1, .i32⟩
  | .hbm, ⟨8, _⟩ => ⟨S1x1600, .i32⟩
  | .hbm, ⟨9, _⟩ => ⟨S92x1600, .i32⟩
  | .hbm, ⟨10, _⟩ => ⟨S92x1600, .i32⟩
  | .hbm, ⟨11, _⟩ => ⟨S92x1600, .i1⟩
  | .hbm, ⟨12, _⟩ => ⟨S92x1600, .bf16⟩
  | .hbm, ⟨13, _⟩ => ⟨S1600x1, .f32⟩
  | .hbm, ⟨14, _⟩ => ⟨S1600, .f32⟩
  | .hbm, ⟨15, _⟩ => ⟨S1600x1, .f32⟩
  | .hbm, ⟨16, _⟩ => ⟨S1600, .f32⟩
  | .hbm, ⟨17, _⟩ => ⟨S1600x1, .f32⟩
  | .hbm, ⟨18, _⟩ => ⟨S1600, .f32⟩
  | .hbm, ⟨19, _⟩ => ⟨S1600x1, .f32⟩
  | .hbm, ⟨20, _⟩ => ⟨S1600, .f32⟩
  | .hbm, ⟨21, _⟩ => ⟨S_, .f32⟩
  | .hbm, ⟨22, _⟩ => ⟨S1600, .f32⟩
  | .hbm, ⟨23, _⟩ => ⟨S1600, .f32⟩
  | .hbm, ⟨24, _⟩ => ⟨S1600, .f32⟩
  | .hbm, ⟨25, _⟩ => ⟨S_, .f32⟩
  | .hbm, ⟨26, _⟩ => ⟨S1600, .f32⟩
  | .hbm, ⟨27, _⟩ => ⟨S1600, .f32⟩
  | .hbm, ⟨28, _⟩ => ⟨S1600, .f32⟩
  | .hbm, ⟨29, _⟩ => ⟨S_, .f32⟩
  | .hbm, ⟨30, _⟩ => ⟨S1600, .f32⟩
  | .hbm, ⟨31, _⟩ => ⟨S1600, .f32⟩
  | .hbm, ⟨32, _⟩ => ⟨S1600, .f32⟩
  | .hbm, ⟨33, _⟩ => ⟨S_, .f32⟩
  | .hbm, ⟨34, _⟩ => ⟨S1600, .f32⟩
  | .hbm, ⟨35, _⟩ => ⟨S1600, .f32⟩
  | .hbm, ⟨36, _⟩ => ⟨S1600, .f32⟩
  | .hbm, ⟨37, _⟩ => ⟨S1600x1, .f32⟩
  | .hbm, ⟨38, _⟩ => ⟨S1600x1, .f32⟩
  | .hbm, ⟨39, _⟩ => ⟨S1600x1, .f32⟩
  | .hbm, ⟨40, _⟩ => ⟨S1600x1, .f32⟩
  | .hbm, ⟨41, _⟩ => ⟨S1600x4, .f32⟩
  | .hbm, ⟨42, _⟩ => ⟨S4x1600, .f32⟩
  | .hbm, ⟨43, _⟩ => ⟨S4x1600, .f32⟩
  | .hbm, ⟨44, _⟩ => ⟨S14400x1600, .f32⟩
  | .hbm, ⟨45, _⟩ => ⟨S16x900x1600, .f32⟩
  | .local _ .vmem, ⟨0, _⟩ => ⟨S480x92, .f32⟩
  | .local _ .vmem, ⟨1, _⟩ => ⟨S480x92, .f32⟩
  | .local _ .vmem, ⟨2, _⟩ => ⟨S480x4, .f32⟩
  | .local _ .vmem, ⟨3, _⟩ => ⟨S480x4, .f32⟩
  | .local _ .vmem, ⟨4, _⟩ => ⟨S92x1600, .bf16⟩
  | .local _ .vmem, ⟨5, _⟩ => ⟨S4x1600, .f32⟩
  | .local _ .vmem, ⟨6, _⟩ => ⟨S4x1600, .f32⟩
  | .local _ .vmem, ⟨7, _⟩ => ⟨S480x1600, .f32⟩
  | .local _ .vmem, ⟨8, _⟩ => ⟨S480x1600, .f32⟩
  | _, _ => ⟨S16x900x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S92x1600 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1600 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S480x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x900x92_S14400x92 : S16x900x92.ShapeCasts S14400x92
  shapeCasts_S16x900x4_S14400x4 : S16x900x4.ShapeCasts S14400x4
  bcast_S92_S92x1_0 : S92.BroadcastsInDim S92x1 (![0] : Fin 1 → Fin S92x1.rank)
  bcast_S1600_S1x1600_1 : S1600.BroadcastsInDim S1x1600 (![1] : Fin 1 → Fin S1x1600.rank)
  bcast_S92x1_S92x1600_0_1 : S92x1.BroadcastsInDim S92x1600 (![0, 1] : Fin 2 → Fin S92x1600.rank)
  bcast_S1x1600_S92x1600_0_1 : S1x1600.BroadcastsInDim S92x1600 (![0, 1] : Fin 2 → Fin S92x1600.rank)
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S_S1600 : S_.BroadcastsInDim S1600 (![] : Fin 0 → Fin S1600.rank)
  bcast_S1600_S1600x1_0 : S1600.BroadcastsInDim S1600x1 (![0] : Fin 1 → Fin S1600x1.rank)
  concatenates_S1600x1_S1600x1_S1600x1_S1600x1_S1600x4_d1 : Shape.Concatenates [S1600x1, S1600x1, S1600x1, S1600x1] S1600x4 1
  transposes_S1600x4_S4x1600_1_0 : S1600x4.Transposes [1, 0] S4x1600
  inb_S480x92_S480x92_0_0 : ∀ a, (![0, 0] : Fin 2 → Nat) a + S480x92.size a ≤ S480x92.size a
  h_S480x92 : 0 < S480x92.numel
  shapeCasts_S480x92_S480x92 : S480x92.ShapeCasts S480x92
  reduces_S480x92_S480 : S480x92.Reduces [1] S480
  shapeCasts_S480_S480x1 : S480.ShapeCasts S480x1
  broadcasts_S480x1_S480x92 : S480x1.Broadcasts S480x92
  bitsLt_bf16_f32 : FTy.bits .bf16 < FTy.bits .f32
  inb_S92x1600_S92x1600_0_0 : ∀ a, (![0, 0] : Fin 2 → Nat) a + S92x1600.size a ≤ S92x1600.size a
  h_S92x1600 : 0 < S92x1600.numel
  shapeCasts_S92x1600_S92x1600 : S92x1600.ShapeCasts S92x1600
  inb_S480x4_S480x4_0_0 : ∀ a, (![0, 0] : Fin 2 → Nat) a + S480x4.size a ≤ S480x4.size a
  h_S480x4 : 0 < S480x4.numel
  shapeCasts_S480x4_S480x4 : S480x4.ShapeCasts S480x4
  slices_S480x4_o0_0_S480x1 : S480x4.Slices ![0, 0] S480x1
  slices_S480x4_o0_1_S480x1 : S480x4.Slices ![0, 1] S480x1
  slices_S480x4_o0_2_S480x1 : S480x4.Slices ![0, 2] S480x1
  slices_S480x4_o0_3_S480x1 : S480x4.Slices ![0, 3] S480x1
  inb_S4x1600_S4x1600_0_0 : ∀ a, (![0, 0] : Fin 2 → Nat) a + S4x1600.size a ≤ S4x1600.size a
  h_S4x1600 : 0 < S4x1600.numel
  shapeCasts_S4x1600_S4x1600 : S4x1600.ShapeCasts S4x1600
  slices_S4x1600_o0_0_S1x1600 : S4x1600.Slices ![0, 0] S1x1600
  slices_S4x1600_o1_0_S1x1600 : S4x1600.Slices ![1, 0] S1x1600
  slices_S4x1600_o2_0_S1x1600 : S4x1600.Slices ![2, 0] S1x1600
  slices_S4x1600_o3_0_S1x1600 : S4x1600.Slices ![3, 0] S1x1600
  broadcasts_S480x1_S480x1600 : S480x1.Broadcasts S480x1600
  broadcasts_S1x1600_S480x1600 : S1x1600.Broadcasts S480x1600
  inb_S480x1600_S480x1600_0_0 : ∀ a, (![0, 0] : Fin 2 → Nat) a + S480x1600.size a ≤ S480x1600.size a
  h_S480x1600 : 0 < S480x1600.numel
  shapeCasts_S14400x1600_S16x900x1600 : S14400x1600.ShapeCasts S16x900x1600
  dot_S480x92_S92x1600_S480x1600_1_0_0_1_n_n_wf : DotDims.WF S480x92 S92x1600 S480x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x92.size a ≤ S14400x92.size a
  hwx0_0 : ∀ i : grid0.Coords, EltTy.bits .f32 = 32 ∨ (Rect.block (s := S14400x92) S480x92.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x4.size a ≤ S14400x4.size a
  hwx0_1 : ∀ i : grid0.Coords, EltTy.bits .f32 = 32 ∨ (Rect.block (s := S14400x4) S480x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S92x1600.size a ≤ S92x1600.size a
  hwx0_2 : ∀ i : grid0.Coords, EltTy.bits .bf16 = 32 ∨ (Rect.block (s := S92x1600) S92x1600.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1600.size a ≤ S4x1600.size a
  hwx0_3 : ∀ i : grid0.Coords, EltTy.bits .f32 = 32 ∨ (Rect.block (s := S4x1600) S4x1600.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1600.size a ≤ S4x1600.size a
  hwx0_4 : ∀ i : grid0.Coords, EltTy.bits .f32 = 32 ∨ (Rect.block (s := S4x1600) S4x1600.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S480x1600.size a ≤ S14400x1600.size a
  hwx0_5 : ∀ i : grid0.Coords, EltTy.bits .f32 = 32 ∨ (Rect.block (s := S14400x1600) S480x1600.size (cc0_transform_5 i) (hinb0_5 i)).WholeWords (EltTy.packing .f32)

variable [Facts₀]

def dot_S480x92_S92x1600_S480x1600_1_0_0_1_n_n : DotDims S480x92 S92x1600 S480x1600 where
  lhsContracting := [1]
  rhsContracting := [0]
  lhsNonContracting := [0]
  rhsNonContracting := [1]
  lhsBatch := []
  rhsBatch := []
  wf := dot_S480x92_S92x1600_S480x1600_1_0_0_1_n_n_wf

abbrev win0_0 : Pipeline.Window sig grid0 :=
  Pipeline.Window.ofSpec (Memref.whole main_v0) S480x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S480x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S92x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S4x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S4x1600.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S480x1600.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x900x92 : Shape := ⟨3, ![16, 900, 92]⟩
abbrev S16x900x4 : Shape := ⟨3, ![16, 900, 4]⟩
abbrev S1600 : Shape := ⟨1, ![1600]⟩
abbrev S1600x4 : Shape := ⟨2, ![1600, 4]⟩
abbrev S14400x92 : Shape := ⟨2, ![14400, 92]⟩
abbrev S_ : Shape := ⟨0, ![]⟩
abbrev S14400 : Shape := ⟨1, ![14400]⟩
abbrev S14400x1 : Shape := ⟨2, ![14400, 1]⟩
abbrev S14400x4 : Shape := ⟨2, ![14400, 4]⟩
abbrev S1600x1 : Shape := ⟨2, ![1600, 1]⟩
abbrev S14400x1600 : Shape := ⟨2, ![14400, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 189
  | .vmem => 0
  | .smem => 0
  | _ => 0

abbrev hbmTy0_0 (i : Nat) : BufTy := match i % 128 with
  | 0 => ⟨S16x900x92, .f32⟩
  | 1 => ⟨S16x900x4, .f32⟩
  | 2 => ⟨S1600, .i32⟩
  | 3 => ⟨S1600x4, .f32⟩
  | 4 => ⟨S14400x92, .f32⟩
  | 5 => ⟨S_, .f32⟩
  | 6 => ⟨S14400, .f32⟩
  | 7 => ⟨S_, .f32⟩
  | 8 => ⟨S14400, .f32⟩
  | 9 => ⟨S14400, .f32⟩
  | 10 => ⟨S14400x1, .f32⟩
  | 11 => ⟨S14400x92, .f32⟩
  | 12 => ⟨S14400x92, .f32⟩
  | 13 => ⟨S14400x92, .f32⟩
  | 14 => ⟨S_, .f32⟩
  | 15 => ⟨S14400, .f32⟩
  | 16 => ⟨S14400x1, .f32⟩
  | 17 => ⟨S14400x92, .f32⟩
  | 18 => ⟨S14400x92, .f32⟩
  | 19 => ⟨S14400x4, .f32⟩
  | 20 => ⟨S_, .i32⟩
  | 21 => ⟨S1600, .i32⟩
  | 22 => ⟨S1600, .i1⟩
  | 23 => ⟨S_, .i32⟩
  | 24 => ⟨S1600, .i32⟩
  | 25 => ⟨S1600, .i32⟩
  | 26 => ⟨S1600, .i32⟩
  | 27 => ⟨S1600x1, .i32⟩
  | 28 => ⟨S14400x1600, .f32⟩
  | 29 => ⟨S14400x1600, .f32⟩
  | 30 => ⟨S14400x1x4, .f32⟩
  | 31 => ⟨S1x1600x4, .f32⟩
  | 32 => ⟨S14400x1600x4, .f32⟩
  | 33 => ⟨S14400x1600x4, .f32⟩
  | 34 => ⟨S14400x1600x4, .f32⟩
  | 35 => ⟨S14400x1600x4, .f32⟩
  | 36 => ⟨S_, .f32⟩
  | 37 => ⟨S14400x1600, .f32⟩
  | 38 => ⟨S14400x1, .f32⟩
  | 39 => ⟨S14400, .f32⟩
  | 40 => ⟨S14400x1, .f32⟩
  | 41 => ⟨S14400, .f32⟩
  | 42 => ⟨S14400x1, .f32⟩
  | 43 => ⟨S14400, .f32⟩
  | 44 => ⟨S14400x1, .f32⟩
  | 45 => ⟨S14400, .f32⟩
  | 46 => ⟨S_, .f32⟩
  | 47 => ⟨S14400, .f32⟩
  | 48 => ⟨S14400, .f32⟩
  | 49 => ⟨S14400, .f32⟩
  | 50 => ⟨S_, .f32⟩
  | 51 => ⟨S14400, .f32⟩
  | 52 => ⟨S14400, .f32⟩
  | 53 => ⟨S14400, .f32⟩
  | 54 => ⟨S_, .f32⟩
  | 55 => ⟨S14400, .f32⟩
  | 56 => ⟨S14400, .f32⟩
  | 57 => ⟨S14400, .f32⟩
  | 58 => ⟨S_, .f32⟩
  | 59 => ⟨S14400, .f32⟩
  | 60 => ⟨S14400, .f32⟩
  | 61 => ⟨S14400, .f32⟩
  | 62 => ⟨S14400x1, .f32⟩
  | 63 => ⟨S14400x1, .f32⟩
  | 64 => ⟨S14400x1, .f32⟩
  | 65 => ⟨S14400x1, .f32⟩
  | 66 => ⟨S14400x4, .f32⟩
  | 67 => ⟨S1600x1, .f32⟩
  | 68 => ⟨S1600, .f32⟩
  | 69 => ⟨S1600x1, .f32⟩
  | 70 => ⟨S1600, .f32⟩
  | 71 => ⟨S1600x1, .f32⟩
  | 72 => ⟨S1600, .f32⟩
  | 73 => ⟨S1600x1, .f32⟩
  | 74 => ⟨S1600, .f32⟩
  | 75 => ⟨S_, .f32⟩
  | 76 => ⟨S1600, .f32⟩
  | 77 => ⟨S1600, .f32⟩
  | 78 => ⟨S1600, .f32⟩
  | 79 => ⟨S_, .f32⟩
  | 80 => ⟨S1600, .f32⟩
  | 81 => ⟨S1600, .f32⟩
  | 82 => ⟨S1600, .f32⟩
  | 83 => ⟨S_, .f32⟩
  | 84 => ⟨S1600, .f32⟩
  | 85 => ⟨S1600, .f32⟩
  | 86 => ⟨S1600, .f32⟩
  | 87 => ⟨S_, .f32⟩
  | 88 => ⟨S1600, .f32⟩
  | 89 => ⟨S1600, .f32⟩
  | 90 => ⟨S1600, .f32⟩
  | 91 => ⟨S1600x1, .f32⟩
  | 92 => ⟨S1600x1, .f32⟩
  | 93 => ⟨S1600x1, .f32⟩
  | 94 => ⟨S1600x1, .f32⟩
  | 95 => ⟨S1600x4, .f32⟩
  | 96 => ⟨S14400x1, .f32⟩
  | 97 => ⟨S14400, .f32⟩
  | 98 => ⟨S14400x1, .f32⟩
  | 99 => ⟨S14400, .f32⟩
  | 100 => ⟨S14400, .f32⟩
  | 101 => ⟨S14400x1, .f32⟩
  | 102 => ⟨S14400, .f32⟩
  | 103 => ⟨S14400x1, .f32⟩
  | 104 => ⟨S14400, .f32⟩
  | 105 => ⟨S14400, .f32⟩
  | 106 => ⟨S14400, .f32⟩
  | 107 => ⟨S1600x1, .f32⟩
  | 108 => ⟨S1600, .f32⟩
  | 109 => ⟨S1600x1, .f32⟩
  | 110 => ⟨S1600, .f32⟩
  | 111 => ⟨S1600, .f32⟩
  | 112 => ⟨S1600x1, .f32⟩
  | 113 => ⟨S1600, .f32⟩
  | 114 => ⟨S1600x1, .f32⟩
  | 115 => ⟨S1600, .f32⟩
  | 116 => ⟨S1600, .f32⟩
  | 117 => ⟨S1600, .f32⟩
  | 118 => ⟨S14400x2, .f32⟩
  | 119 => ⟨S14400x1x2, .f32⟩
  | 120 => ⟨S1600x2, .f32⟩
  | 121 => ⟨S1x1600x2, .f32⟩
  | 122 => ⟨S14400x1600x2, .f32⟩
  | 123 => ⟨S14400x1600x2, .f32⟩
  | 124 => ⟨S14400x1600x2, .f32⟩
  | 125 => ⟨S14400x2, .f32⟩
  | 126 => ⟨S14400x1x2, .f32⟩
  | 127 => ⟨S1600x2, .f32⟩
  | _ => ⟨S16x900x92, .f32⟩

abbrev hbmTy0_1 (i : Nat) : BufTy := match i % 128 with
  | 0 => ⟨S1x1600x2, .f32⟩
  | 1 => ⟨S14400x1600x2, .f32⟩
  | 2 => ⟨S14400x1600x2, .f32⟩
  | 3 => ⟨S14400x1600x2, .f32⟩
  | 4 => ⟨S14400x1600x2, .f32⟩
  | 5 => ⟨S_, .f32⟩
  | 6 => ⟨S_, .f32⟩
  | 7 => ⟨S14400x1600x2, .f32⟩
  | 8 => ⟨S14400x1600x2, .f32⟩
  | 9 => ⟨S14400x1600x1, .f32⟩
  | 10 => ⟨S14400x1600, .f32⟩
  | 11 => ⟨S14400x1600x1, .f32⟩
  | 12 => ⟨S14400x1600, .f32⟩
  | 13 => ⟨S14400x1600, .f32⟩
  | 14 => ⟨S14400x1, .f32⟩
  | 15 => ⟨S1x1600, .f32⟩
  | 16 => ⟨S14400x1600, .f32⟩
  | 17 => ⟨S14400x1600, .f32⟩
  | 18 => ⟨S14400x1600, .f32⟩
  | 19 => ⟨S14400x1600, .f32⟩
  | 20 => ⟨S14400x1600, .f32⟩
  | 21 => ⟨S14400x2, .f32⟩
  | 22 => ⟨S14400x1x2, .f32⟩
  | 23 => ⟨S1600x2, .f32⟩
  | 24 => ⟨S1x1600x2, .f32⟩
  | 25 => ⟨S14400x1600x2, .f32⟩
  | 26 => ⟨S14400x1600x2, .f32⟩
  | 27 => ⟨S14400x1600x2, .f32⟩
  | 28 => ⟨S14400x2, .f32⟩
  | 29 => ⟨S14400x1x2, .f32⟩
  | 30 => ⟨S1600x2, .f32⟩
  | 31 => ⟨S1x1600x2, .f32⟩
  | 32 => ⟨S14400x1600x2, .f32⟩
  | 33 => ⟨S14400x1600x2, .f32⟩
  | 34 => ⟨S14400x1600x2, .f32⟩
  | 35 => ⟨S14400x1600x2, .f32⟩
  | 36 => ⟨S_, .f32⟩
  | 37 => ⟨S_, .f32⟩
  | 38 => ⟨S14400x1600x2, .f32⟩
  | 39 => ⟨S14400x1600x2, .f32⟩
  | 40 => ⟨S14400x1600x1, .f32⟩
  | 41 => ⟨S14400x1600, .f32⟩
  | 42 => ⟨S14400x1600x1, .f32⟩
  | 43 => ⟨S14400x1600, .f32⟩
  | 44 => ⟨S14400x1600, .f32⟩
  | 45 => ⟨S14400x1600, .f32⟩
  | 46 => ⟨S14400x1600, .f32⟩
  | 47 => ⟨S14400x1600, .f32⟩
  | 48 => ⟨S14400x1600, .f32⟩
  | 49 => ⟨S_, .f32⟩
  | 50 => ⟨S14400x1600, .f32⟩
  | 51 => ⟨S14400x1600, .f32⟩
  | 52 => ⟨S_, .f32⟩
  | 53 => ⟨S14400x1600, .f32⟩
  | 54 => ⟨S14400x1600, .f32⟩
  | 55 => ⟨S14400x1600, .f32⟩
  | 56 => ⟨S_, .f32⟩
  | 57 => ⟨S14400x1600, .f32⟩
  | 58 => ⟨S14400x1600, .f32⟩
  | 59 => ⟨S14400x1600, .f32⟩
  | 60 => ⟨S16x900x1600, .f32⟩
  | _ => ⟨S16x900x92, .f32⟩

abbrev hbmTy (i : Nat) : BufTy := match i / 128 with
  | 0 => hbmTy0_0 i
  | 1 => hbmTy0_1 i
  | _ => ⟨S16x900x92, .f32⟩

abbrev bufTy : (tb : Table) → Fin (tcTables nBuf tb) → BufTy
  | .hbm, ⟨i, _⟩ => hbmTy i
  | _, _ => ⟨S16x900x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_12 : Ref sig .tc := ⟨.hbm, 133, rfl⟩
abbrev main_call0_v0 : Ref sig .tc := ⟨.hbm, 134, rfl⟩
abbrev main_call0_v1 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_13 : Ref sig .tc := ⟨.hbm, 164, rfl⟩
abbrev main_call1_v0 : Ref sig .tc := ⟨.hbm, 165, rfl⟩
abbrev main_call1_v1 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_cst_14 : Ref sig .tc := ⟨.hbm, 177, rfl⟩
abbrev main_v153 : Ref sig .tc := ⟨.hbm, 178, rfl⟩
abbrev main_v154 : Ref sig .tc := ⟨.hbm, 179, rfl⟩
abbrev main_cst_15 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_16 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩

abbrev nD : Nat := 1
abbrev τ : Topo := Topo.v7x

variable {F : FTy → Type} [FloatOps F]

class Facts₀ : Prop where
  shapeCasts_S16x900x92_S14400x92 : S16x900x92.ShapeCasts S14400x92
  reducesTo_S14400x92_S14400_d1 : S14400x92.ReducesTo [1] S14400
  h_S_ : 0 < S_.numel
  bcast_S_S14400 : S_.BroadcastsInDim S14400 (![] : Fin 0 → Fin S14400.rank)
  bcast_S14400_S14400x1_0 : S14400.BroadcastsInDim S14400x1 (![0] : Fin 1 → Fin S14400x1.rank)
  bcast_S14400x1_S14400x92_0_1 : S14400x1.BroadcastsInDim S14400x92 (![0, 1] : Fin 2 → Fin S14400x92.rank)
  shapeCasts_S16x900x4_S14400x4 : S16x900x4.ShapeCasts S14400x4
  bcast_S_S1600 : S_.BroadcastsInDim S1600 (![] : Fin 0 → Fin S1600.rank)
  bcast_S1600_S1600x1_0 : S1600.BroadcastsInDim S1600x1 (![0] : Fin 1 → Fin S1600x1.rank)
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  concatenates_S14400x1_S14400x1_S14400x1_S14400x1_S14400x4_d1 : Shape.Concatenates [S14400x1, S14400x1, S14400x1, S14400x1] S14400x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  concatenates_S1600x1_S1600x1_S1600x1_S1600x1_S1600x4_d1 : Shape.Concatenates [S1600x1, S1600x1, S1600x1, S1600x1] S1600x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  bcast_S_S14400x1600 : S_.BroadcastsInDim S14400x1600 (![] : Fin 0 → Fin S14400x1600.rank)
  shapeCasts_S14400x1600_S16x900x1600 : S14400x1600.ShapeCasts S16x900x1600
  gather_S14400x92_S1600x1_S14400x1600_0_1_n_n_1_1_144001_wf : GatherDims.WF S14400x92 S1600x1 S14400x1600 [0] [1] [] [1] [] 1 ![14400, 1]

variable [Facts₀]

def gather_S14400x92_S1600x1_S14400x1600_0_1_n_n_1_1_144001 : GatherDims S14400x92 S1600x1 S14400x1600 where
  offsetDims := [0]
  collapsedSliceDims := [1]
  operandBatchingDims := []
  startIndicesBatchingDims := []
  startIndexMap := [1]
  indexVectorDim := 1
  sliceSizes := ![14400, 1]
  wf := gather_S14400x92_S1600x1_S14400x1600_0_1_n_n_1_1_144001_wf

class Facts : Prop extends Facts₀ where

variable [Facts]
-- ==== Proof.KHost.lean ====
import proofs.«427664_j48163763258165_1_alg».proof.Proof.Gen.Kernel.Launch
import proofs.«427664_j48163763258165_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# @main around its one region

@main is forty host operations (reshapes of the logits and boxes, the class-indicator matrix from the ids, the
targets' corner boxes and the two transposes), the region, and one reshape of the result. This module states what
each core's buffers hold when the region is entered, that @main is "prefix, region, suffix", that the suffix touches
only what it may, that no host operation writes an argument array, and what each window's block at a grid point is.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at region entry -/

/-- Core `c`'s buffer contents when the region is entered: the launch memory after the forty host operations. -/
abbrev atEntry0 (c : Dev nD) : Valuation τ sig (Elt F) := StableHlo.after (List.flatten [hostOps0]) (fun b => m (c, b))
/-- The same, read at a TensorCore reference. -/
abbrev atEntry (c : Dev nD) (b : Ref sig .tc) : Buf (Elt F) ((c : Thread nD τ).loc b) := atEntry0 m c (Proc.devRef .tc b)

theorem prefix_fresh : (hostOps0 : List (HloOp τ sig (Elt F))).Forall fun op => op.fresh = ∅ := by
  simp only [List.Forall]; repeat' constructor
theorem suffix_fresh1 : (hostOps1 : List (HloOp τ sig (Elt F))).Forall fun op => op.fresh = ∅ := by
  simp only [List.Forall]; repeat' constructor

/-- @main is its host prefix, the region, and then the host suffix as the region's continuation. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The suffix touches only the pipeline's arrays and the buffers that bypass it. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem suffix_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_fresh1) op hop
/-- And it writes no array of the pipeline: the reshape writes only its own result buffer. -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The argument arrays are written by no host operation -/

set_option maxHeartbeats 1000000 in
/-- No host operation before the region writes argument 0: the region finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and it is no array of the pipeline: it ends as launched. -/
theorem exit_arg0 (dats : (p : Fin _) → (c : Dev nD) → Dat τ (Elt F) Unit ℕ (UR sig nD τ) ℕ (cfgs p) c) (c : Dev nD) :
    Pipeline.afterTail₀ cfgs dats 0 (atEntry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (atEntry0 m c) _ main_arg0 (by exact (by decide : ∀ w, Pipeline.arrRef spec0 w ≠ main_arg0))]
  exact entry_arg0 m c

set_option maxHeartbeats 1000000 in
/-- No host operation before the region writes argument 1: the region finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1, and it is no array of the pipeline: it ends as launched. -/
theorem exit_arg1 (dats : (p : Fin _) → (c : Dev nD) → Dat τ (Elt F) Unit ℕ (UR sig nD τ) ℕ (cfgs p) c) (c : Dev nD) :
    Pipeline.afterTail₀ cfgs dats 0 (atEntry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (atEntry0 m c) _ main_arg1 (by exact (by decide : ∀ w, Pipeline.arrRef spec0 w ≠ main_arg1))]
  exact entry_arg1 m c

set_option maxHeartbeats 1000000 in
/-- No host operation before the region writes argument 2: the region finds it as launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2, and it is no array of the pipeline: it ends as launched. -/
theorem exit_arg2 (dats : (p : Fin _) → (c : Dev nD) → Dat τ (Elt F) Unit ℕ (UR sig nD τ) ℕ (cfgs p) c) (c : Dev nD) :
    Pipeline.afterTail₀ cfgs dats 0 (atEntry0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (atEntry0 m c) _ main_arg2 (by exact (by decide : ∀ w, Pipeline.arrRef spec0 w ≠ main_arg2))]
  exact entry_arg2 m c

set_option maxHeartbeats 1000000 in
/-- No host operation before the region writes argument 3: the region finds it as launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3, and it is no array of the pipeline: it ends as launched. -/
theorem exit_arg3 (dats : (p : Fin _) → (c : Dev nD) → Dat τ (Elt F) Unit ℕ (UR sig nD τ) ℕ (cfgs p) c) (c : Dev nD) :
    Pipeline.afterTail₀ cfgs dats 0 (atEntry0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (atEntry0 m c) _ main_arg3 (by exact (by decide : ∀ w, Pipeline.arrRef spec0 w ≠ main_arg3))]
  exact entry_arg3 m c

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, fetched there or not (where it is not
    fetched its block index has not moved), for any proof data over the region-entry arrays whose body leaves the block in place. -/
theorem input_before0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not (where it is not
    fetched its block index has not moved), for any proof data over the region-entry arrays whose body leaves the block in place. -/
theorem input_before1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not (where it is not
    fetched its block index has not moved), for any proof data over the region-entry arrays whose body leaves the block in place. -/
theorem input_before2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not (where it is not
    fetched its block index has not moved), for any proof data over the region-entry arrays whose body leaves the block in place. -/
theorem input_before3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, fetched there or not (where it is not
    fetched its block index has not moved), for any proof data over the region-entry arrays whose body leaves the block in place. -/
theorem input_before4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame conjunct's post from a frame run -/

/-- For any proof data over the region-entry arrays, a run to the library's frame post, read at the four argument
    arrays — none is an array of the pipeline, so each is what the suffix leaves of the region-entry contents, which is
    the launch contents —, is the frame conjunct's post. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (Pipeline.afterTail₀ cfgs dats 0 (atEntry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c),
     ((h c).2 main_arg3 (Pipeline.mem_restRefs_of main_arg3 (by decide) (by decide))).trans (exit_arg3 m dats c)⟩) h

end Cert.Kernel.Hand

end
-- ==== Proof.KBlock.lean ====
import proofs.«427664_j48163763258165_1_alg».proof.Proof.Gen.Kernel.Skeleton

/-!
# The block one grid point stores

The kernel body at a grid point loads five blocks — 480 rows of logits `x0`, the same 480 rows of query boxes `x1`, the
92 × 1600 class-indicator matrix `x2`, and the 4 × 1600 target boxes in centre-size form `x3` and in corner form `x4` —
and stores one 480 × 1600 block of costs. `outBlk` is that stored block as a function of the five loaded ones: the
composition of the body's named pure values.
-/

noncomputable section

namespace Cert.Kernel.Hand

open Idealize.ShloMosaic Idealize.SL.Sem Cert.Kernel Cert.Kernel.Gen

variable {F : FTy → Type} [FloatOps F]

/-- The stored block of costs from the five loaded blocks. -/
def outBlk (x0 : Vec F S480x92 .f32) (x1 : Vec F S480x4 .f32) (x2 : Vec F S92x1600 .bf16) (x3 x4 : Vec F S4x1600 .f32) :
    FVec F S480x1600 .f32 :=
  k0_pay1 (k0_pay2 x0 x2) (k0_pay11 (k0_pay9 x1 x3) (k0_pay10 x1 x3))
    (k0_pay13 (k0_pay5 x1) (k0_pay7 x1)) (k0_pay14 (k0_pay4 x1) (k0_pay6 x1)) (k0_pay15 (k0_pay5 x1) (k0_pay7 x1))
    (k0_pay18 x4) (k0_pay19 x4) (k0_pay20 x4)
    (k0_pay22 (k0_pay4 x1) (k0_pay5 x1) (k0_pay6 x1) (k0_pay7 x1) x4)
    (k0_pay23 (k0_pay4 x1) (k0_pay5 x1) (k0_pay6 x1) (k0_pay7 x1) x4)
    (k0_pay24 (k0_pay4 x1) (k0_pay6 x1) x4)

end Cert.Kernel.Hand

end
-- ==== Proof.KBody.lean ====
import proofs.«427664_j48163763258165_1_alg».proof.Proof.Gen.Kernel.Launch
import proofs.«427664_j48163763258165_1_alg».proof.Proof.Gen.Kernel.Skeleton
import proofs.«427664_j48163763258165_1_alg».proof.Proof.KBlock
import Idealize.ShloMosaic.Lib.Pipeline.FrameBody
import Idealize.ShloMosaic.Lib.Ring
import Idealize.ShloMosaic.Lib.Tactic

/-!
# The kernel body as a Hoare triple

On whole staging buffers the body reads each of its five input buffers once, through the rectangle that is the whole
buffer, reads the output buffer (and ignores what it read), and overwrites the output buffer whole with `outBlk` of
what it loaded. So from the inputs at contents `x0 … x4` and the output at anything it runs, faulting nowhere, to the
inputs unchanged and the output at `stored x0 … x4`.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body's accesses cover: each is its whole buffer -/

abbrev rLogits : Rect S480x92 := Rect.unit (s := S480x92) ![0, 0] S480x92.size inb_S480x92_S480x92_0_0
abbrev rBoxes : Rect S480x4 := Rect.unit (s := S480x4) ![0, 0] S480x4.size inb_S480x4_S480x4_0_0
abbrev rHot : Rect S92x1600 := Rect.unit (s := S92x1600) ![0, 0] S92x1600.size inb_S92x1600_S92x1600_0_0
abbrev rTgt : Rect S4x1600 := Rect.unit (s := S4x1600) ![0, 0] S4x1600.size inb_S4x1600_S4x1600_0_0
abbrev rOut : Rect S480x1600 := Rect.unit (s := S480x1600) ![0, 0] S480x1600.size inb_S480x1600_S480x1600_0_0

/-- What the output buffer holds after the body: its one store, of `outBlk` of the five loads. -/
def stored (x0 : Vec F S480x92 .f32) (x1 : Vec F S480x4 .f32) (x2 : Vec F S92x1600 .bf16) (x3 x4 : Vec F S4x1600 .f32) :
    Vec F S480x1600 .f32 :=
  View.canon [⟨rOut, outBlk (View.ld x0 rLogits) (View.ld x1 rBoxes) (View.ld x2 rHot) (View.ld x3 rTgt) (View.ld x4 rTgt)⟩]

/-- The one store covers the whole buffer. -/
theorem stored_cover (p0 : Vec F S480x1600 .f32) (y : S480x1600.Idx) :
    ∃ pc ∈ ([⟨rOut, p0⟩] : List (View.Piece (Elt F) S480x1600 .f32)), y ∈ pc.1.set :=
  View.cover_of_tiled [⟨rOut, p0⟩] S480x1600.size (by rfl) y

set_option maxHeartbeats 4000000 in
/-- THE BODY'S TRIPLE. -/
theorem body_triple (c : Dev nD) (E : Set ℕ) (i : grid0.Coords)
    (arg1 : Memref sig .tc .vmem S480x92 .f32) (harg1 : arg1.IsWhole) (arg2 : Memref sig .tc .vmem S480x4 .f32) (harg2 : arg2.IsWhole)
    (arg3 : Memref sig .tc .vmem S92x1600 .bf16) (harg3 : arg3.IsWhole) (arg4 : Memref sig .tc .vmem S4x1600 .f32) (harg4 : arg4.IsWhole)
    (arg5 : Memref sig .tc .vmem S4x1600 .f32) (harg5 : arg5.IsWhole) (arg6 : Memref sig .tc .vmem S480x1600 .f32) (harg6 : arg6.IsWhole)
    (x0 : Vec F S480x92 .f32) (x1 : Vec F S480x4 .f32) (x2 : Vec F S92x1600 .bf16) (x3 x4 : Vec F S4x1600 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E
          (cc0__cost_kernel i arg1 harg1 arg2 harg2 arg3 harg3 arg4 harg4 arg5 harg5 arg6 harg6) K := by
  simp only [cc0__cost_kernel_eq_skeleton]; unfold cc0__cost_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (stored_cover _)

end Cert.Kernel.Hand

end
-- ==== Proof.KRun.lean ====
import proofs.«427664_j48163763258165_1_alg».proof.Proof.KHost
import proofs.«427664_j48163763258165_1_alg».proof.Proof.KBody

/-!
# The run of the kernel's @main, and its frame

The proof data of the one pipeline: its arrays are the region-entry contents; after the body at a grid point each
input buffer holds its block and the output buffer holds `stored` of the five input blocks; nothing is owed and the
shares are full. The body obligation at a grid point is then the body's triple at the blocks, and the library's launch
theorem for "host prefix, region, host suffix" gives the run: every weakly fair execution of @main terminates, with
every array of the pipeline at what the proof data says and every other buffer as the suffix leaves it.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The block of costs point `t` leaves in the output buffer. -/
abbrev storedAt (c : Dev nD) (t : Fin cfg0.N) : Vec F S480x1600 .f32 :=
  stored (blockAt m c 0 t) (blockAt m c 1 t) (blockAt m c 2 t) (blockAt m c 3 t) (blockAt m c 4 t)

/-- The pipeline's proof data on core `c`. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => storedAt m c t
  Φ _ := Pipeline.ΦA spec0 c
  q _ := fullShare
  owed _ := 0

theorem dats_A (c : Dev nD) (w : Fin cfg0.W) : (dats m 0 c).A w = atEntry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = storedAt m c t := by dsimp only [dats]

/-- Each input buffer holds its block when the body is called, at every point. -/
theorem before0 (c : Dev nD) (t : Fin cfg0.N) (d) : (dats m 0 c).before 0 t d = blockAt m c 0 t :=
  input_before0 m (dats m 0 c) (dats_A m c 0) (after0 m c) t d
theorem before1 (c : Dev nD) (t : Fin cfg0.N) (d) : (dats m 0 c).before 1 t d = blockAt m c 1 t :=
  input_before1 m (dats m 0 c) (dats_A m c 1) (after1 m c) t d
theorem before2 (c : Dev nD) (t : Fin cfg0.N) (d) : (dats m 0 c).before 2 t d = blockAt m c 2 t :=
  input_before2 m (dats m 0 c) (dats_A m c 2) (after2 m c) t d
theorem before3 (c : Dev nD) (t : Fin cfg0.N) (d) : (dats m 0 c).before 3 t d = blockAt m c 3 t :=
  input_before3 m (dats m 0 c) (dats_A m c 3) (after3 m c) t d
theorem before4 (c : Dev nD) (t : Fin cfg0.N) (d) : (dats m 0 c).before 4 t d = blockAt m c 4 t :=
  input_before4 m (dats m 0 c) (dats_A m c 4) (after4 m c) t d

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the invariant and what
    the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates, every array of the pipeline ending at what the proof data says and
    every other unscoped buffer as the suffix leaves it. -/
theorem run_main : θ_run defs (onTc (τ := τ) (main (F := F))) (s₀ m ρ)
    (Pipeline.FramePost cfgs (dats m) 0 (Pipeline.afterTail₀ cfgs (dats m) 0 (atEntry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := atEntry0 m) (opss := [hostOps1]) (hsub := suffix_sub) (hfresh := suffix_fresh) (hkeep := suffix_keeps)
    (hmain := main_around m Variants.none) (hA := dats_A m) (hΦ := fun _ _ => rfl)

/-- THE FRAME: @main runs, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_run m ρ (dats m) (dats_A m) (run_main m ρ)

end Cert.Kernel.Hand

end
-- ==== Proof.KIHost.lean ====
import proofs.«427664_j48163763258165_1_alg».proof.Proof.Gen.KernelIdeal.Launch
import proofs.«427664_j48163763258165_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# @main around its one region

@main is forty host operations (reshapes of the logits and boxes, the class-indicator matrix from the ids, the
targets' corner boxes and the two transposes), the region, and one reshape of the result. This module states what
each core's buffers hold when the region is entered, that @main is "prefix, region, suffix", that the suffix touches
only what it may, that no host operation writes an argument array, and what each window's block at a grid point is.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at region entry -/

/-- Core `c`'s buffer contents when the region is entered: the launch memory after the forty host operations. -/
abbrev atEntry0 (c : Dev nD) : Valuation τ sig (Elt F) := StableHlo.after (List.flatten [hostOps0]) (fun b => m (c, b))
/-- The same, read at a TensorCore reference. -/
abbrev atEntry (c : Dev nD) (b : Ref sig .tc) : Buf (Elt F) ((c : Thread nD τ).loc b) := atEntry0 m c (Proc.devRef .tc b)

theorem prefix_fresh : (hostOps0 : List (HloOp τ sig (Elt F))).Forall fun op => op.fresh = ∅ := by
  simp only [List.Forall]; repeat' constructor
theorem suffix_fresh1 : (hostOps1 : List (HloOp τ sig (Elt F))).Forall fun op => op.fresh = ∅ := by
  simp only [List.Forall]; repeat' constructor

/-- @main is its host prefix, the region, and then the host suffix as the region's continuation. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The suffix touches only the pipeline's arrays and the buffers that bypass it. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem suffix_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_fresh1) op hop
/-- And it writes no array of the pipeline: the reshape writes only its own result buffer. -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The argument arrays are written by no host operation -/

set_option maxHeartbeats 1000000 in
/-- No host operation before the region writes argument 0: the region finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and it is no array of the pipeline: it ends as launched. -/
theorem exit_arg0 (dats : (p : Fin _) → (c : Dev nD) → Dat τ (Elt F) Unit ℕ (UR sig nD τ) ℕ (cfgs p) c) (c : Dev nD) :
    Pipeline.afterTail₀ cfgs dats 0 (atEntry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (atEntry0 m c) _ main_arg0 (by exact (by decide : ∀ w, Pipeline.arrRef spec0 w ≠ main_arg0))]
  exact entry_arg0 m c

set_option maxHeartbeats 1000000 in
/-- No host operation before the region writes argument 1: the region finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1, and it is no array of the pipeline: it ends as launched. -/
theorem exit_arg1 (dats : (p : Fin _) → (c : Dev nD) → Dat τ (Elt F) Unit ℕ (UR sig nD τ) ℕ (cfgs p) c) (c : Dev nD) :
    Pipeline.afterTail₀ cfgs dats 0 (atEntry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (atEntry0 m c) _ main_arg1 (by exact (by decide : ∀ w, Pipeline.arrRef spec0 w ≠ main_arg1))]
  exact entry_arg1 m c

set_option maxHeartbeats 1000000 in
/-- No host operation before the region writes argument 2: the region finds it as launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2, and it is no array of the pipeline: it ends as launched. -/
theorem exit_arg2 (dats : (p : Fin _) → (c : Dev nD) → Dat τ (Elt F) Unit ℕ (UR sig nD τ) ℕ (cfgs p) c) (c : Dev nD) :
    Pipeline.afterTail₀ cfgs dats 0 (atEntry0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (atEntry0 m c) _ main_arg2 (by exact (by decide : ∀ w, Pipeline.arrRef spec0 w ≠ main_arg2))]
  exact entry_arg2 m c

set_option maxHeartbeats 1000000 in
/-- No host operation before the region writes argument 3: the region finds it as launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3, and it is no array of the pipeline: it ends as launched. -/
theorem exit_arg3 (dats : (p : Fin _) → (c : Dev nD) → Dat τ (Elt F) Unit ℕ (UR sig nD τ) ℕ (cfgs p) c) (c : Dev nD) :
    Pipeline.afterTail₀ cfgs dats 0 (atEntry0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (atEntry0 m c) _ main_arg3 (by exact (by decide : ∀ w, Pipeline.arrRef spec0 w ≠ main_arg3))]
  exact entry_arg3 m c

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, fetched there or not (where it is not
    fetched its block index has not moved), for any proof data over the region-entry arrays whose body leaves the block in place. -/
theorem input_before0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not (where it is not
    fetched its block index has not moved), for any proof data over the region-entry arrays whose body leaves the block in place. -/
theorem input_before1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not (where it is not
    fetched its block index has not moved), for any proof data over the region-entry arrays whose body leaves the block in place. -/
theorem input_before2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not (where it is not
    fetched its block index has not moved), for any proof data over the region-entry arrays whose body leaves the block in place. -/
theorem input_before3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, fetched there or not (where it is not
    fetched its block index has not moved), for any proof data over the region-entry arrays whose body leaves the block in place. -/
theorem input_before4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame conjunct's post from a frame run -/

/-- For any proof data over the region-entry arrays, a run to the library's frame post, read at the four argument
    arrays — none is an array of the pipeline, so each is what the suffix leaves of the region-entry contents, which is
    the launch contents —, is the frame conjunct's post. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (Pipeline.afterTail₀ cfgs dats 0 (atEntry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c),
     ((h c).2 main_arg3 (Pipeline.mem_restRefs_of main_arg3 (by decide) (by decide))).trans (exit_arg3 m dats c)⟩) h

end Cert.KernelIdeal.Hand

end
-- ==== Proof.KIBlock.lean ====
import proofs.«427664_j48163763258165_1_alg».proof.Proof.Gen.KernelIdeal.Skeleton

/-!
# The block one grid point stores

The kernel body at a grid point loads five blocks — 480 rows of logits `x0`, the same 480 rows of query boxes `x1`, the
92 × 1600 class-indicator matrix `x2`, and the 4 × 1600 target boxes in centre-size form `x3` and in corner form `x4` —
and stores one 480 × 1600 block of costs. `outBlk` is that stored block as a function of the five loaded ones: the
composition of the body's named pure values.
-/

noncomputable section

namespace Cert.KernelIdeal.Hand

open Idealize.ShloMosaic Idealize.SL.Sem Cert.KernelIdeal Cert.KernelIdeal.Gen

variable {F : FTy → Type} [FloatOps F]

/-- The stored block of costs from the five loaded blocks. -/
def outBlk (x0 : Vec F S480x92 .f32) (x1 : Vec F S480x4 .f32) (x2 : Vec F S92x1600 .bf16) (x3 x4 : Vec F S4x1600 .f32) :
    FVec F S480x1600 .f32 :=
  k0_pay1 (k0_pay2 x0 x2) (k0_pay11 (k0_pay9 x1 x3) (k0_pay10 x1 x3))
    (k0_pay13 (k0_pay5 x1) (k0_pay7 x1)) (k0_pay14 (k0_pay4 x1) (k0_pay6 x1)) (k0_pay15 (k0_pay5 x1) (k0_pay7 x1))
    (k0_pay18 x4) (k0_pay19 x4) (k0_pay20 x4)
    (k0_pay22 (k0_pay4 x1) (k0_pay5 x1) (k0_pay6 x1) (k0_pay7 x1) x4)
    (k0_pay23 (k0_pay4 x1) (k0_pay5 x1) (k0_pay6 x1) (k0_pay7 x1) x4)
    (k0_pay24 (k0_pay4 x1) (k0_pay6 x1) x4)

end Cert.KernelIdeal.Hand

end
-- ==== Proof.KIBody.lean ====
import proofs.«427664_j48163763258165_1_alg».proof.Proof.Gen.KernelIdeal.Launch
import proofs.«427664_j48163763258165_1_alg».proof.Proof.Gen.KernelIdeal.Skeleton
import proofs.«427664_j48163763258165_1_alg».proof.Proof.KIBlock
import Idealize.ShloMosaic.Lib.Pipeline.FrameBody
import Idealize.ShloMosaic.Lib.Ring
import Idealize.ShloMosaic.Lib.Tactic

/-!
# The kernel body as a Hoare triple

On whole staging buffers the body reads each of its five input buffers once, through the rectangle that is the whole
buffer, reads the output buffer (and ignores what it read), and overwrites the output buffer whole with `outBlk` of
what it loaded. So from the inputs at contents `x0 … x4` and the output at anything it runs, faulting nowhere, to the
inputs unchanged and the output at `stored x0 … x4`.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body's accesses cover: each is its whole buffer -/

abbrev rLogits : Rect S480x92 := Rect.unit (s := S480x92) ![0, 0] S480x92.size inb_S480x92_S480x92_0_0
abbrev rBoxes : Rect S480x4 := Rect.unit (s := S480x4) ![0, 0] S480x4.size inb_S480x4_S480x4_0_0
abbrev rHot : Rect S92x1600 := Rect.unit (s := S92x1600) ![0, 0] S92x1600.size inb_S92x1600_S92x1600_0_0
abbrev rTgt : Rect S4x1600 := Rect.unit (s := S4x1600) ![0, 0] S4x1600.size inb_S4x1600_S4x1600_0_0
abbrev rOut : Rect S480x1600 := Rect.unit (s := S480x1600) ![0, 0] S480x1600.size inb_S480x1600_S480x1600_0_0

/-- What the output buffer holds after the body: its one store, of `outBlk` of the five loads. -/
def stored (x0 : Vec F S480x92 .f32) (x1 : Vec F S480x4 .f32) (x2 : Vec F S92x1600 .bf16) (x3 x4 : Vec F S4x1600 .f32) :
    Vec F S480x1600 .f32 :=
  View.canon [⟨rOut, outBlk (View.ld x0 rLogits) (View.ld x1 rBoxes) (View.ld x2 rHot) (View.ld x3 rTgt) (View.ld x4 rTgt)⟩]

/-- The one store covers the whole buffer. -/
theorem stored_cover (p0 : Vec F S480x1600 .f32) (y : S480x1600.Idx) :
    ∃ pc ∈ ([⟨rOut, p0⟩] : List (View.Piece (Elt F) S480x1600 .f32)), y ∈ pc.1.set :=
  View.cover_of_tiled [⟨rOut, p0⟩] S480x1600.size (by rfl) y

set_option maxHeartbeats 4000000 in
/-- THE BODY'S TRIPLE. -/
theorem body_triple (c : Dev nD) (E : Set ℕ) (i : grid0.Coords)
    (arg1 : Memref sig .tc .vmem S480x92 .f32) (harg1 : arg1.IsWhole) (arg2 : Memref sig .tc .vmem S480x4 .f32) (harg2 : arg2.IsWhole)
    (arg3 : Memref sig .tc .vmem S92x1600 .bf16) (harg3 : arg3.IsWhole) (arg4 : Memref sig .tc .vmem S4x1600 .f32) (harg4 : arg4.IsWhole)
    (arg5 : Memref sig .tc .vmem S4x1600 .f32) (harg5 : arg5.IsWhole) (arg6 : Memref sig .tc .vmem S480x1600 .f32) (harg6 : arg6.IsWhole)
    (x0 : Vec F S480x92 .f32) (x1 : Vec F S480x4 .f32) (x2 : Vec F S92x1600 .bf16) (x3 x4 : Vec F S4x1600 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E
          (cc0__cost_kernel i arg1 harg1 arg2 harg2 arg3 harg3 arg4 harg4 arg5 harg5 arg6 harg6) K := by
  simp only [cc0__cost_kernel_eq_skeleton]; unfold cc0__cost_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (stored_cover _)

end Cert.KernelIdeal.Hand

end
-- ==== Proof.KIRun.lean ====
import proofs.«427664_j48163763258165_1_alg».proof.Proof.KIHost
import proofs.«427664_j48163763258165_1_alg».proof.Proof.KIBody

/-!
# The run of the idealized kernel's @main, and its frame

The proof data of the one pipeline: its arrays are the region-entry contents; after the body at a grid point each
input buffer holds its block and the output buffer holds `stored` of the five input blocks; nothing is owed and the
shares are full. The body obligation at a grid point is then the body's triple at the blocks, and the library's launch
theorem for "host prefix, region, host suffix" gives the run: every weakly fair execution of @main terminates, with
every array of the pipeline at what the proof data says and every other buffer as the suffix leaves it.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The block of costs point `t` leaves in the output buffer. -/
abbrev storedAt (c : Dev nD) (t : Fin cfg0.N) : Vec F S480x1600 .f32 :=
  stored (blockAt m c 0 t) (blockAt m c 1 t) (blockAt m c 2 t) (blockAt m c 3 t) (blockAt m c 4 t)

/-- The pipeline's proof data on core `c`. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => storedAt m c t
  Φ _ := Pipeline.ΦA spec0 c
  q _ := fullShare
  owed _ := 0

theorem dats_A (c : Dev nD) (w : Fin cfg0.W) : (dats m 0 c).A w = atEntry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = storedAt m c t := by dsimp only [dats]

/-- Each input buffer holds its block when the body is called, at every point. -/
theorem before0 (c : Dev nD) (t : Fin cfg0.N) (d) : (dats m 0 c).before 0 t d = blockAt m c 0 t :=
  input_before0 m (dats m 0 c) (dats_A m c 0) (after0 m c) t d
theorem before1 (c : Dev nD) (t : Fin cfg0.N) (d) : (dats m 0 c).before 1 t d = blockAt m c 1 t :=
  input_before1 m (dats m 0 c) (dats_A m c 1) (after1 m c) t d
theorem before2 (c : Dev nD) (t : Fin cfg0.N) (d) : (dats m 0 c).before 2 t d = blockAt m c 2 t :=
  input_before2 m (dats m 0 c) (dats_A m c 2) (after2 m c) t d
theorem before3 (c : Dev nD) (t : Fin cfg0.N) (d) : (dats m 0 c).before 3 t d = blockAt m c 3 t :=
  input_before3 m (dats m 0 c) (dats_A m c 3) (after3 m c) t d
theorem before4 (c : Dev nD) (t : Fin cfg0.N) (d) : (dats m 0 c).before 4 t d = blockAt m c 4 t :=
  input_before4 m (dats m 0 c) (dats_A m c 4) (after4 m c) t d

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the invariant and what
    the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates, every array of the pipeline ending at what the proof data says and
    every other unscoped buffer as the suffix leaves it. -/
theorem run_main : θ_run defs (onTc (τ := τ) (main (F := F))) (s₀ m ρ)
    (Pipeline.FramePost cfgs (dats m) 0 (Pipeline.afterTail₀ cfgs (dats m) 0 (atEntry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := atEntry0 m) (opss := [hostOps1]) (hsub := suffix_sub) (hfresh := suffix_fresh) (hkeep := suffix_keeps)
    (hmain := main_around m Variants.none) (hA := dats_A m) (hΦ := fun _ _ => rfl)

/-- THE FRAME: @main runs, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_run m ρ (dats m) (dats_A m) (run_main m ρ)

end Cert.KernelIdeal.Hand

end
-- ==== Proof.KIBlocks.lean ====
import proofs.«427664_j48163763258165_1_alg».proof.Proof.KIRun
import Idealize.ShloMosaic.Lib.Pipeline.Value
import Idealize.ShloMosaic.Lib.ValueIdx

/-!
# The blocks of the one region, read off the arrays

Every access of the kernel body is a whole staging buffer, so the block a grid point leaves in the output buffer is
`outBlk` of the input buffers. Point `t` of the thirty stages rows `480 t … 480 t + 479` of the flattened logits and
boxes and of the result, and the whole of the class-indicator matrix and of the two target arrays; the thirty result
blocks tile the 14400 × 1600 matrix.
-/
set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! ## The stored block is `outBlk` of the buffers themselves -/

/-- The origin of a rank-2 rectangle. -/
theorem origin2 : (![0, 0] : Fin 2 → Nat) = fun _ => 0 := funext fun a => by fin_cases a <;> rfl

/-- Every access of the body is its whole buffer, so the block left in the output buffer is `outBlk` of the five input
    buffers' contents. -/
theorem stored_eq (x0 : Vec Ideal S480x92 .f32) (x1 : Vec Ideal S480x4 .f32) (x2 : Vec Ideal S92x1600 .bf16) (x3 x4 : Vec Ideal S4x1600 .f32) :
    stored x0 x1 x2 x3 x4 = outBlk x0 x1 x2 x3 x4 := by
  unfold stored
  rw [View.canon_unit_zero origin2]
  simp only [View.ld_unit_zero (S := S480x92) origin2, View.ld_unit_zero (S := S480x4) origin2,
    View.ld_unit_zero (S := S92x1600) origin2, View.ld_unit_zero (S := S4x1600) origin2]

/-! ## The windows' block indices over the grid -/

/-- Point `t` of the thirty takes rows `480 t … 480 t + 479` of the logits, the boxes and the result, and the whole
    of the three target-side arrays. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid has thirty points. -/
theorem point_lt (t : Fin cfg0.N) : t.val < 30 := lt_of_lt_of_eq t.isLt N_0

/-! ## Each input block, read off the region-entry array -/

/-- Row `p` of point `t`'s logits block is row `480 t + p` of the flattened logits. -/
theorem logits_block (c : Dev nD) (t : Fin cfg0.N) (p : Fin 480) (k : Fin 92) :
    blockAt m c 0 t (ix2 p k) = atEntry m c main_v0 (ix2 (⟨t.val * 480 + p.val, by have := point_lt t; have := p.isLt; omega⟩ : Fin 14400) k) := by
  obtain ⟨e0, e1, -⟩ := index_facts t
  show atEntry m c main_v0 (((cfg0.win 0).blk t).view.emb (ix2 p k)) = _
  refine congrArg _ ?_
  funext a; apply Fin.ext
  match a with
  | ⟨0, _⟩ => show win0_0.index t (0 : Fin 2) * 480 + 1 * p.val = t.val * 480 + p.val; omega
  | ⟨1, _⟩ => show win0_0.index t (1 : Fin 2) * 92 + 1 * k.val = k.val; omega

/-- Row `p` of point `t`'s box block is row `480 t + p` of the flattened boxes. -/
theorem boxes_block (c : Dev nD) (t : Fin cfg0.N) (p : Fin 480) (v : Fin 4) :
    blockAt m c 1 t (ix2 p v) = atEntry m c main_v1 (ix2 (⟨t.val * 480 + p.val, by have := point_lt t; have := p.isLt; omega⟩ : Fin 14400) v) := by
  obtain ⟨-, -, e0, e1, -⟩ := index_facts t
  show atEntry m c main_v1 (((cfg0.win 1).blk t).view.emb (ix2 p v)) = _
  refine congrArg _ ?_
  funext a; apply Fin.ext
  match a with
  | ⟨0, _⟩ => show win0_1.index t (0 : Fin 2) * 480 + 1 * p.val = t.val * 480 + p.val; omega
  | ⟨1, _⟩ => show win0_1.index t (1 : Fin 2) * 4 + 1 * v.val = v.val; omega

/-- The class-indicator block is the whole matrix, at every point. -/
theorem hot_block (c : Dev nD) (t : Fin cfg0.N) (k : Fin 92) (j : Fin 1600) :
    blockAt m c 2 t (ix2 k j) = atEntry m c main_v8 (ix2 k j) := by
  obtain ⟨-, -, -, -, e0, e1, -⟩ := index_facts t
  show atEntry m c main_v8 (((cfg0.win 2).blk t).view.emb (ix2 k j)) = _
  refine congrArg _ ?_
  funext a; apply Fin.ext
  match a with
  | ⟨0, _⟩ => show win0_2.index t (0 : Fin 2) * 92 + 1 * k.val = k.val; omega
  | ⟨1, _⟩ => show win0_2.index t (1 : Fin 2) * 1600 + 1 * j.val = j.val; omega

/-- The centre-size target block is the whole transposed target array. -/
theorem tgt_block (c : Dev nD) (t : Fin cfg0.N) (u : Fin 4) (j : Fin 1600) :
    blockAt m c 3 t (ix2 u j) = atEntry m c main_v34 (ix2 u j) := by
  obtain ⟨-, -, -, -, -, -, e0, e1, -⟩ := index_facts t
  show atEntry m c main_v34 (((cfg0.win 3).blk t).view.emb (ix2 u j)) = _
  refine congrArg _ ?_
  funext a; apply Fin.ext
  match a with
  | ⟨0, _⟩ => show win0_3.index t (0 : Fin 2) * 4 + 1 * u.val = u.val; omega
  | ⟨1, _⟩ => show win0_3.index t (1 : Fin 2) * 1600 + 1 * j.val = j.val; omega

/-- The corner-form target block is the whole transposed corner array. -/
theorem corners_block (c : Dev nD) (t : Fin cfg0.N) (u : Fin 4) (j : Fin 1600) :
    blockAt m c 4 t (ix2 u j) = atEntry m c main_v35 (ix2 u j) := by
  obtain ⟨-, -, -, -, -, -, -, -, e0, e1, -⟩ := index_facts t
  show atEntry m c main_v35 (((cfg0.win 4).blk t).view.emb (ix2 u j)) = _
  refine congrArg _ ?_
  funext a; apply Fin.ext
  match a with
  | ⟨0, _⟩ => show win0_4.index t (0 : Fin 2) * 4 + 1 * u.val = u.val; omega
  | ⟨1, _⟩ => show win0_4.index t (1 : Fin 2) * 1600 + 1 * j.val = j.val; omega

/-! ## The thirty blocks tile the cost matrix -/

/-- An index of the matrix is in point `t`'s block iff each coordinate is in the block's range. -/
theorem mem_block (t : Fin cfg0.N) (i : S14400x1600.Idx) :
    i ∈ ((cfg0.win 5).blk t).view.set ↔ ∀ a : Fin 2, win0_5.index t a * S480x1600.size a ≤ (i a).val ∧ (i a).val < win0_5.index t a * S480x1600.size a + S480x1600.size a := by
  show i ∈ ((View.whole main_v36).slice (win0_5.rect t)).set ↔ _
  rw [View.set_slice_whole, Rect.mem_set_unit]
  exact Iff.rfl

/-- Row `r` of the matrix lies in the block of point `r / 480`. -/
theorem covered (i : S14400x1600.Idx) :
    ∃ t : Fin cfg0.N, (cfg0.win 5).flush t = true ∧ i ∈ ((cfg0.win 5).blk t).view.set := by
  have h0 : (i 0).val < 14400 := (i 0).isLt
  have h1 : (i 1).val < 1600 := (i 1).isLt
  let t : Fin cfg0.N := ⟨(i 0).val / 480, lt_of_lt_of_eq (by omega : (i 0).val / 480 < 30) N_0.symm⟩
  have ht : t.val = (i 0).val / 480 := rfl
  obtain ⟨e10, e11⟩ : win0_5.index t (0 : Fin 2) = t.val ∧ win0_5.index t (1 : Fin 2) = 0 := by
    obtain ⟨-, -, -, -, -, -, -, -, -, -, h⟩ := index_facts t; exact h
  refine ⟨t, flush0_5 t, ?_⟩
  rw [mem_block]
  intro a
  match a with
  | ⟨0, _⟩ => show win0_5.index t (0 : Fin 2) * 480 ≤ (i 0).val ∧ (i 0).val < win0_5.index t (0 : Fin 2) * 480 + 480; omega
  | ⟨1, _⟩ => show win0_5.index t (1 : Fin 2) * 1600 ≤ (i 1).val ∧ (i 1).val < win0_5.index t (1 : Fin 2) * 1600 + 1600; omega

end Cert.KernelIdeal.Hand

end
-- ==== Proof.Spec.lean ====
import Idealize.ShloMosaic.PureOps.Ideal
import Idealize.ShloMosaic.PureOps.Ideal.Laws
import Idealize.ShloMosaic.Lib.ValueIdx

/-!
# The matching cost of one query against one target, on the extended reals

For a row of class logits `xr`, a query box `b = (cx, cy, w, h)`, a target class id and a target box
`t = (cx, cy, w, h)`, the cost is

  5 · ‖b − t‖₁  +  1 · (0 − softmax(xr)[id])  +  2 · (0 − GIoU(xyxy b, xyxy t)),

with softmax taken after subtracting the row maximum, and GIoU = IoU − (hull − union) / hull over corner boxes.
Two spellings of the same number are given: `cost`, which reads the class probability at the id, and `costK`, which
contracts the probability row against a 0/1 column; `costK_eq_cost` says they agree when the column is the indicator
of an id in `[0, 92)`.
-/

noncomputable section

namespace Cert.Spec

open Idealize.ShloMosaic

/-- The literals the two programs share, as the extended reals their f32 words denote. -/
abbrev negInf : EReal := Ideal.ofBits .f32 0xFF800000#32
abbrev zero : EReal := Ideal.ofBits .f32 0x00000000#32
abbrev half : EReal := Ideal.ofBits .f32 0x3F000000#32
abbrev one : EReal := Ideal.ofBits .f32 0x3F800000#32
abbrev two : EReal := Ideal.ofBits .f32 0x40000000#32
abbrev five : EReal := Ideal.ofBits .f32 0x40A00000#32

/-- A class id is a label: it lies in `[0, 92)` read as a signed word. -/
def IdOk (id : BitVec 32) : Prop := 0 ≤ id.toInt ∧ id.toInt < 92

/-- The class a label word names (its value modulo the number of classes: the value itself for a label). -/
def classIdx (id : BitVec 32) : Fin 92 := ⟨id.toNat % 92, Nat.mod_lt _ (by decide)⟩

section softmax
variable (xr : Fin 92 → EReal)

/-- The row maximum, folded from −∞. -/
def rowMax : EReal := (Finset.univ : Finset (Fin 92)).fold max negInf xr
/-- The shifted exponentials. -/
def expo (k : Fin 92) : EReal := Ideal.exp (xr k - rowMax xr)
/-- Their sum. -/
def rowSum : EReal := ∑ k : Fin 92, expo xr k
/-- The softmax probability of class `k`. -/
def prob (k : Fin 92) : EReal := Ideal.div (expo xr k) (rowSum xr)
end softmax

/-- |x| on the extended reals. -/
abbrev eabs (x : EReal) : EReal := max x (-x)

/-- The L1 distance of two boxes, summed coordinate by coordinate from the left. -/
def l1 (b t : Fin 4 → EReal) : EReal :=
  ((eabs (b 0 - t 0) + eabs (b 1 - t 1)) + eabs (b 2 - t 2)) + eabs (b 3 - t 3)

/-- Corner form (x1, y1, x2, y2) of a centre-size box. -/
def xyxy (t : Fin 4 → EReal) : Fin 4 → EReal := fun c =>
  match c with
  | ⟨0, _⟩ => t 0 - half * t 2
  | ⟨1, _⟩ => t 1 - half * t 3
  | ⟨2, _⟩ => t 0 + half * t 2
  | ⟨3, _⟩ => t 1 + half * t 3

section giou
-- `q`, `x`: two boxes in corner form.
variable (q x : Fin 4 → EReal)

def area (q : Fin 4 → EReal) : EReal := (q 2 - q 0) * (q 3 - q 1)
def inter : EReal := max zero (min (q 2) (x 2) - max (q 0) (x 0)) * max zero (min (q 3) (x 3) - max (q 1) (x 1))
def union : EReal := (area q + area x) - inter q x
def hull : EReal := max zero (max (q 2) (x 2) - min (q 0) (x 0)) * max zero (max (q 3) (x 3) - min (q 1) (x 1))
/-- Generalized IoU of two corner boxes. -/
def giou : EReal := Ideal.div (inter q x) (union q x) - Ideal.div (hull q x - union q x) (hull q x)
end giou

/-- The weighted combination of the three terms. -/
def comb (l c g : EReal) : EReal := (five * l + one * (zero - c)) + two * (zero - g)

/-- The cost, reading the class probability at the label. -/
def cost (xr : Fin 92 → EReal) (b : Fin 4 → EReal) (id : BitVec 32) (t : Fin 4 → EReal) : EReal :=
  comb (l1 b t) (prob xr (classIdx id)) (giou (xyxy b) (xyxy t))

/-- The cost, contracting the probability row against a column `oh`, with the target box given both in centre-size form
    `tr` and in corner form `tx`. -/
def costK (xr : Fin 92 → EReal) (b : Fin 4 → EReal) (oh : Fin 92 → EReal) (tr tx : Fin 4 → EReal) : EReal :=
  comb (l1 b tr) (∑ k : Fin 92, prob xr k * oh k) (giou (xyxy b) tx)

/-- Contracting a row against the indicator of one class reads the row there: every other term is a product with 0. -/
theorem sum_mul_indicator (p : Fin 92 → EReal) (c : Fin 92) (oh : Fin 92 → EReal)
    (hoh : ∀ k, oh k = if k = c then 1 else 0) : ∑ k : Fin 92, p k * oh k = p c := by
  rw [Finset.sum_eq_single c]
  · rw [hoh c, if_pos rfl, mul_one]
  · intro k _ hk; rw [hoh k, if_neg hk, mul_zero]
  · intro h; exact absurd (Finset.mem_univ c) h

/-- For a label word, "the class index `k` is this word" is "k is the word's class". -/
theorem ofNat_eq_iff {id : BitVec 32} (h : IdOk id) (k : Fin 92) : BitVec.ofNat 32 k.val = id ↔ k = classIdx id := by
  obtain ⟨h0, h1⟩ := h
  have hlt : id.toNat < 92 := by
    have := BitVec.toInt_eq_toNat_cond id
    have hb := id.isLt
    split at this <;> omega
  constructor
  · intro e
    apply Fin.ext
    have : id.toNat = k.val := by
      rw [← e, BitVec.toNat_ofNat]; exact Nat.mod_eq_of_lt (by have := k.isLt; omega)
    show k.val = id.toNat % 92
    rw [Nat.mod_eq_of_lt hlt]; exact this.symm
  · intro e
    apply BitVec.eq_of_toNat_eq
    rw [BitVec.toNat_ofNat, e]
    show (id.toNat % 92) % 2 ^ 32 = id.toNat
    rw [Nat.mod_eq_of_lt hlt]; exact Nat.mod_eq_of_lt id.isLt

/-- THE LAW JOINING THE TWO SPELLINGS: against the indicator column of a label, with the same target box in both forms,
    the contracted cost is the cost read at the label. -/
theorem costK_eq_cost (xr : Fin 92 → EReal) (b : Fin 4 → EReal) (id : BitVec 32) (t : Fin 4 → EReal)
    (oh : Fin 92 → EReal) (tr tx : Fin 4 → EReal) (hid : IdOk id)
    (hoh : ∀ k : Fin 92, oh k = if BitVec.ofNat 32 k.val = id then 1 else 0)
    (htr : tr = t) (htx : tx = xyxy t) :
    costK xr b oh tr tx = cost xr b id t := by
  subst htr htx
  unfold costK cost
  rw [sum_mul_indicator (prob xr) (classIdx id) oh (fun k => by
    rw [hoh k]; exact if_congr (ofNat_eq_iff hid k) rfl rfl)]

end Cert.Spec

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.KIBlockValue.lean ====
import proofs.«427664_j48163763258165_1_alg».proof.Proof.KIBlock
import proofs.«427664_j48163763258165_1_alg».proof.Proof.Spec
import proofs.«427664_j48163763258165_1_alg».proof.Proof.LibRowCasts
import Idealize.ShloMosaic.Lib.ValueIdx
import Idealize.ShloMosaic.Lib.ValueLayout
import Idealize.ShloMosaic.Lib.Pipeline.Value
import Idealize.ShloMosaic.PureOps.Ideal.Laws

/-!
# The stored block read at an index

Entry `(p, j)` of the block of costs is the matching cost `Cert.Spec.costK` of row `p` of the logits, query box `p`,
column `j` of the class-indicator matrix and target box `j` in its two forms. The proof reads each value of the body at
an index, in the body's order: the four columns of the box block and the four rows of each target block (slices); a
column broadcast over the lanes and a row broadcast over the rows; the query box's corners; the L1 distance; the
intersection, the union, their quotient and the hull's left edge; the softmax row — the row maximum as a fold of
`max` from −∞, the row sum as a finite sum, each kept as a column and broadcast back over the 92 lanes —; the class
term, a block product read as the sum over the 92 classes; and the weighted combination. Each step is what an
operation is at an index; no law of extended-real arithmetic is used.
-/

noncomputable section
namespace Cert.KernelIdeal.Hand
open Idealize.ShloMosaic Idealize.ShloMosaic.ValueIdx Cert.KernelIdeal Cert.KernelIdeal.Gen

namespace BlockValue

open Idealize.ShloMosaic.RowCasts

/-! ## The box block's columns and the target blocks' rows -/

/-- Columns 0 to 3 of the 480 × 4 box block, read at row `p`. -/
theorem col0_apply (x1 : Vec Ideal S480x4 .f32) (p : Fin 480) (u : Fin 1) :
    k0_pay4 (F := Ideal) x1 (ix2 p u) = x1 (ix2 p (0 : Fin 4)) := by
  unfold k0_pay4 k0_pay3
  rw [shapeCast_self]
  exact slice2_axis1_apply 0 x1 _ p u (0 : Fin 4) (by have := u.isLt; show 0 = 0 + u.val; omega)

theorem col1_apply (x1 : Vec Ideal S480x4 .f32) (p : Fin 480) (u : Fin 1) :
    k0_pay5 (F := Ideal) x1 (ix2 p u) = x1 (ix2 p (1 : Fin 4)) := by
  unfold k0_pay5 k0_pay3
  rw [shapeCast_self]
  exact slice2_axis1_apply 1 x1 _ p u (1 : Fin 4) (by have := u.isLt; show 1 = 1 + u.val; omega)

theorem col2_apply (x1 : Vec Ideal S480x4 .f32) (p : Fin 480) (u : Fin 1) :
    k0_pay6 (F := Ideal) x1 (ix2 p u) = x1 (ix2 p (2 : Fin 4)) := by
  unfold k0_pay6 k0_pay3
  rw [shapeCast_self]
  exact slice2_axis1_apply 2 x1 _ p u (2 : Fin 4) (by have := u.isLt; show 2 = 2 + u.val; omega)

theorem col3_apply (x1 : Vec Ideal S480x4 .f32) (p : Fin 480) (u : Fin 1) :
    k0_pay7 (F := Ideal) x1 (ix2 p u) = x1 (ix2 p (3 : Fin 4)) := by
  unfold k0_pay7 k0_pay3
  rw [shapeCast_self]
  exact slice2_axis1_apply 3 x1 _ p u (3 : Fin 4) (by have := u.isLt; show 3 = 3 + u.val; omega)

/-- Row `c` of a 4 × 1600 target block, read at lane `j`. -/
theorem row_apply (c : Nat) (x : Vec Ideal S4x1600 .f32) (h : S4x1600.Slices ![c, 0] S1x1600) (u : Fin 1) (j : Fin 1600)
    (k : Fin 4) (hk : k.val = c) :
    extractStridedSlice S1x1600 ![c, 0] x h (ix2 u j) = x (ix2 k j) :=
  slice2_axis0_apply c x h u j k (by have := u.isLt; omega)

theorem trow0_apply (x4 : Vec Ideal S4x1600 .f32) (u : Fin 1) (j : Fin 1600) :
    k0_pay17 (F := Ideal) x4 (ix2 u j) = x4 (ix2 (0 : Fin 4) j) := by
  unfold k0_pay17 k0_pay16
  rw [shapeCast_self]
  exact row_apply 0 x4 _ u j 0 rfl

theorem trow1_apply (x4 : Vec Ideal S4x1600 .f32) (u : Fin 1) (j : Fin 1600) :
    k0_pay18 (F := Ideal) x4 (ix2 u j) = x4 (ix2 (1 : Fin 4) j) := by
  unfold k0_pay18 k0_pay16
  rw [shapeCast_self]
  exact row_apply 1 x4 _ u j 1 rfl

theorem trow2_apply (x4 : Vec Ideal S4x1600 .f32) (u : Fin 1) (j : Fin 1600) :
    k0_pay19 (F := Ideal) x4 (ix2 u j) = x4 (ix2 (2 : Fin 4) j) := by
  unfold k0_pay19 k0_pay16
  rw [shapeCast_self]
  exact row_apply 2 x4 _ u j 2 rfl

theorem trow3_apply (x4 : Vec Ideal S4x1600 .f32) (u : Fin 1) (j : Fin 1600) :
    k0_pay20 (F := Ideal) x4 (ix2 u j) = x4 (ix2 (3 : Fin 4) j) := by
  unfold k0_pay20 k0_pay16
  rw [shapeCast_self]
  exact row_apply 3 x4 _ u j 3 rfl

/-! ## The two broadcasts to the 480 × 1600 block -/

/-- A column broadcast over the lanes reads, at `(p, j)`, the column's entry `p`. -/
theorem bcol_apply (v : FVec Ideal S480x1 .f32) (p : Fin 480) (j : Fin 1600) :
    broadcastTo S480x1600 v broadcasts_S480x1_S480x1600 (ix2 p j) = v (ix2 p (0 : Fin 1)) :=
  broadcastTo_column_apply v _ p j

/-- A row broadcast over the rows reads, at `(p, j)`, the row's entry `j`. -/
theorem brow_apply (v : FVec Ideal S1x1600 .f32) (p : Fin 480) (j : Fin 1600) :
    broadcastTo S480x1600 v broadcasts_S1x1600_S480x1600 (ix2 p j) = v (ix2 (0 : Fin 1) j) :=
  broadcastTo_1b_ab_apply v _ p j

/-! ## The query box's corners -/

theorem boxLeft_apply (v19 v21 : FVec Ideal S480x1 .f32) (i : S480x1.Idx) :
    k0_pay12 v19 v21 i = v19 i - Cert.Spec.half * v21 i := rfl
theorem boxTop_apply (v20 v22 : FVec Ideal S480x1 .f32) (i : S480x1.Idx) :
    k0_pay13 v20 v22 i = v20 i - Cert.Spec.half * v22 i := rfl
theorem boxRight_apply (v19 v21 : FVec Ideal S480x1 .f32) (i : S480x1.Idx) :
    k0_pay14 v19 v21 i = v19 i + Cert.Spec.half * v21 i := rfl
theorem boxBottom_apply (v20 v22 : FVec Ideal S480x1 .f32) (i : S480x1.Idx) :
    k0_pay15 v20 v22 i = v20 i + Cert.Spec.half * v22 i := rfl

section Corners
variable (x1 : Vec Ideal S480x4 .f32) (p : Fin 480)

/-- The query box of row `p`. -/
abbrev qbox : Fin 4 → EReal := fun c => x1 (ix2 p c)

theorem corner0_apply (u : Fin 1) :
    k0_pay12 (k0_pay4 (F := Ideal) x1) (k0_pay6 x1) (ix2 p u) = Cert.Spec.xyxy (qbox x1 p) 0 := by
  rw [boxLeft_apply, col0_apply, col2_apply]; rfl
theorem corner1_apply (u : Fin 1) :
    k0_pay13 (k0_pay5 (F := Ideal) x1) (k0_pay7 x1) (ix2 p u) = Cert.Spec.xyxy (qbox x1 p) 1 := by
  rw [boxTop_apply, col1_apply, col3_apply]; rfl
theorem corner2_apply (u : Fin 1) :
    k0_pay14 (k0_pay4 (F := Ideal) x1) (k0_pay6 x1) (ix2 p u) = Cert.Spec.xyxy (qbox x1 p) 2 := by
  rw [boxRight_apply, col0_apply, col2_apply]; rfl
theorem corner3_apply (u : Fin 1) :
    k0_pay15 (k0_pay5 (F := Ideal) x1) (k0_pay7 x1) (ix2 p u) = Cert.Spec.xyxy (qbox x1 p) 3 := by
  rw [boxBottom_apply, col1_apply, col3_apply]; rfl
end Corners

/-! ## The L1 distance -/

/-- `|x|` at an index is `max x (−x)` of the element. -/
theorem absf_apply {s : Shape} {φ : FTy} (a : FVec Ideal s φ) (i : s.Idx) : absf a i = max (a i) (-(a i)) := rfl

/-- An exponential at an index is the exponential of the element. -/
theorem exp_apply {s : Shape} {φ : FTy} (a : FVec Ideal s φ) (i : s.Idx) : exp a i = Ideal.exp (a i) := rfl

theorem crow0_apply (x3 : Vec Ideal S4x1600 .f32) (h : S4x1600.Slices ![0, 0] S1x1600) (u : Fin 1) (j : Fin 1600) :
    extractStridedSlice S1x1600 ![0, 0] (k0_pay8 (F := Ideal) x3) h (ix2 u j) = x3 (ix2 (0 : Fin 4) j) := by
  unfold k0_pay8; rw [shapeCast_self]; exact row_apply 0 x3 _ u j 0 rfl
theorem crow1_apply (x3 : Vec Ideal S4x1600 .f32) (h : S4x1600.Slices ![1, 0] S1x1600) (u : Fin 1) (j : Fin 1600) :
    extractStridedSlice S1x1600 ![1, 0] (k0_pay8 (F := Ideal) x3) h (ix2 u j) = x3 (ix2 (1 : Fin 4) j) := by
  unfold k0_pay8; rw [shapeCast_self]; exact row_apply 1 x3 _ u j 1 rfl
theorem crow2_apply (x3 : Vec Ideal S4x1600 .f32) (h : S4x1600.Slices ![2, 0] S1x1600) (u : Fin 1) (j : Fin 1600) :
    extractStridedSlice S1x1600 ![2, 0] (k0_pay8 (F := Ideal) x3) h (ix2 u j) = x3 (ix2 (2 : Fin 4) j) := by
  unfold k0_pay8; rw [shapeCast_self]; exact row_apply 2 x3 _ u j 2 rfl
theorem crow3_apply (x3 : Vec Ideal S4x1600 .f32) (h : S4x1600.Slices ![3, 0] S1x1600) (u : Fin 1) (j : Fin 1600) :
    extractStridedSlice S1x1600 ![3, 0] (k0_pay8 (F := Ideal) x3) h (ix2 u j) = x3 (ix2 (3 : Fin 4) j) := by
  unfold k0_pay8; rw [shapeCast_self]; exact row_apply 3 x3 _ u j 3 rfl

section L1
variable (x1 : Vec Ideal S480x4 .f32) (x3 : Vec Ideal S4x1600 .f32) (p : Fin 480) (j : Fin 1600)

/-- Column `j` of a 4 × 1600 target block. -/
abbrev tcol (x : Vec Ideal S4x1600 .f32) (j : Fin 1600) : Fin 4 → EReal := fun c => x (ix2 c j)

theorem l1FirstThree_apply :
    k0_pay9 (F := Ideal) x1 x3 (ix2 p j)
      = (Cert.Spec.eabs (qbox x1 p 0 - tcol x3 j 0) + Cert.Spec.eabs (qbox x1 p 1 - tcol x3 j 1))
          + Cert.Spec.eabs (qbox x1 p 2 - tcol x3 j 2) := by
  unfold k0_pay9
  simp only [addf_apply, absf_apply, subf_apply, bcol_apply, brow_apply, col0_apply, col1_apply, col2_apply,
    crow0_apply, crow1_apply, crow2_apply]

theorem l1Fourth_apply :
    k0_pay10 (F := Ideal) x1 x3 (ix2 p j) = Cert.Spec.eabs (qbox x1 p 3 - tcol x3 j 3) := by
  unfold k0_pay10
  simp only [absf_apply, subf_apply, bcol_apply, brow_apply, col3_apply, crow3_apply]

theorem l1_apply :
    k0_pay11 (k0_pay9 (F := Ideal) x1 x3) (k0_pay10 x1 x3) (ix2 p j) = Cert.Spec.l1 (qbox x1 p) (tcol x3 j) := by
  unfold k0_pay11
  simp only [addf_apply, l1FirstThree_apply, l1Fourth_apply]
  rfl
end L1

/-! ## Intersection, union, IoU and the hull's left edge -/

section Giou
variable (x1 : Vec Ideal S480x4 .f32) (x4 : Vec Ideal S4x1600 .f32) (p : Fin 480) (j : Fin 1600)

theorem inter_apply :
    k0_pay21 (k0_pay4 (F := Ideal) x1) (k0_pay5 x1) (k0_pay6 x1) (k0_pay7 x1) x4 (ix2 p j)
      = Cert.Spec.inter (Cert.Spec.xyxy (qbox x1 p)) (tcol x4 j) := by
  unfold k0_pay21
  simp only [mulf_apply, maximumf_apply, minimumf_apply, subf_apply, broadcast_apply, bcol_apply, brow_apply,
    corner0_apply, corner1_apply, corner2_apply, corner3_apply, trow0_apply, trow1_apply, trow2_apply, trow3_apply]
  rfl

theorem union_apply :
    k0_pay22 (k0_pay4 (F := Ideal) x1) (k0_pay5 x1) (k0_pay6 x1) (k0_pay7 x1) x4 (ix2 p j)
      = Cert.Spec.union (Cert.Spec.xyxy (qbox x1 p)) (tcol x4 j) := by
  unfold k0_pay22
  simp only [mulf_apply, addf_apply, subf_apply, bcol_apply, brow_apply, inter_apply,
    corner0_apply, corner1_apply, corner2_apply, corner3_apply, trow0_apply, trow1_apply, trow2_apply, trow3_apply]
  rfl

theorem iou_apply :
    k0_pay23 (k0_pay4 (F := Ideal) x1) (k0_pay5 x1) (k0_pay6 x1) (k0_pay7 x1) x4 (ix2 p j)
      = Ideal.div (Cert.Spec.inter (Cert.Spec.xyxy (qbox x1 p)) (tcol x4 j))
          (Cert.Spec.union (Cert.Spec.xyxy (qbox x1 p)) (tcol x4 j)) := by
  unfold k0_pay23
  simp only [divf_apply, inter_apply, union_apply]

theorem hullLeft_apply :
    k0_pay24 (k0_pay4 (F := Ideal) x1) (k0_pay6 x1) x4 (ix2 p j)
      = min (Cert.Spec.xyxy (qbox x1 p) 0) (tcol x4 j 0) := by
  unfold k0_pay24
  simp only [minimumf_apply, bcol_apply, brow_apply, corner0_apply, trow0_apply]
end Giou

/-! ## The softmax row -/

section Softmax
variable (p : Fin 480)

/-- The reduced index `p` with lane `k` put back on axis 1 is `(p, k)`. -/
theorem lift_row (h : S480x92.Reduces [1] S480) (k : Fin 92) : h.lift (ix1 p) k = ix2 p k := by
  funext a
  apply Fin.ext
  match a with
  | ⟨0, _⟩ => rfl
  | ⟨1, _⟩ => rfl

/-- The maximum over the lanes, at row `p`: the fold of `max` from −∞ over the row. -/
theorem rowMax_apply (v : FVec Ideal S480x92 .f32) (h : S480x92.Reduces [1] S480) (hφ : FKind.Formats .f32)
    (hacc : (0xFF800000#32 : BitVec (FTy.bits .f32)) = FKind.maximumf.neutral .f32 hφ) :
    multiReduction .maximumf [1] S480 v 0xFF800000#32 h hφ hacc (ix1 p)
      = Cert.Spec.rowMax (fun k => v (ix2 p k)) := by
  refine (Ideal.multiReduction_maximumf_single v _ h hφ hacc (ix1 p)).trans ?_
  rw [show v ∘ h.lift (ix1 p) = fun k : Fin 92 => v (ix2 p k) from funext fun k => congrArg v (lift_row p h k)]
  rfl

/-- The sum over the lanes, at row `p`. -/
theorem rowSum_apply (e : FVec Ideal S480x92 .f32) (h : S480x92.Reduces [1] S480) (hφ : FKind.Formats .f32)
    (hacc : (0x00000000#32 : BitVec (FTy.bits .f32)) = FKind.add.neutral .f32 hφ) :
    multiReduction .add [1] S480 e 0x00000000#32 h hφ hacc (ix1 p) = ∑ k : Fin 92, e (ix2 p k) := by
  refine (Ideal.multiReduction_add_single e _ h hφ hacc (ix1 p)).trans ?_
  show ∑ k : Fin 92, e (h.lift (ix1 p) k) = _
  exact Finset.sum_congr rfl fun k _ => congrArg e (lift_row p h k)

/-- A per-row value kept as a column and broadcast over the 92 lanes reads, at `(p, k)`, the value of row `p`. -/
theorem keepdims_apply (w : FVec Ideal S480 .f32) (k : Fin 92) :
    broadcastTo S480x92 (shapeCast S480x1 w shapeCasts_S480_S480x1) broadcasts_S480x1_S480x92 (ix2 p k) = w (ix1 p) := by
  rw [broadcastTo_column_apply, shapeCast_column_apply]
end Softmax

section SoftmaxChain
variable (v : FVec Ideal S480x92 .f32) (p : Fin 480)

/-- The row maxima, the shifted exponentials, their row sums and the quotients, as the body computes them. -/
def smMax : FVec Ideal S480 .f32 :=
  multiReduction .maximumf [1] S480 v 0xFF800000#32 reduces_S480x92_S480 (.inl rfl) rfl
def smExp : FVec Ideal S480x92 .f32 :=
  exp (subf v (broadcastTo S480x92 (shapeCast S480x1 (smMax v) shapeCasts_S480_S480x1) broadcasts_S480x1_S480x92))
def smSum : FVec Ideal S480 .f32 :=
  multiReduction .add [1] S480 (smExp v) 0x00000000#32 reduces_S480x92_S480 (.inl rfl) rfl
def smProb : FVec Ideal S480x92 .f32 :=
  divf (smExp v) (broadcastTo S480x92 (shapeCast S480x1 (smSum v) shapeCasts_S480_S480x1) broadcasts_S480x1_S480x92)

theorem smMax_apply : smMax v (ix1 p) = Cert.Spec.rowMax (fun k => v (ix2 p k)) :=
  rowMax_apply p v _ _ _

theorem smExp_apply (k : Fin 92) : smExp v (ix2 p k) = Cert.Spec.expo (fun k => v (ix2 p k)) k := by
  unfold smExp
  rw [exp_apply, subf_apply, keepdims_apply, smMax_apply]
  rfl

theorem smSum_apply : smSum v (ix1 p) = Cert.Spec.rowSum (fun k => v (ix2 p k)) :=
  (rowSum_apply p (smExp v) _ _ _).trans (Finset.sum_congr rfl fun k _ => smExp_apply v p k)

theorem smProb_apply (k : Fin 92) : smProb v (ix2 p k) = Cert.Spec.prob (fun k => v (ix2 p k)) k := by
  unfold smProb
  rw [divf_apply, keepdims_apply, smExp_apply, smSum_apply]
  rfl
end SoftmaxChain

/-! ## The class term: the block product read at an index -/

section Product

theorem lhs_dot_S480x92_S92x1600_S480x1600_1_0_0_1_n_n_0 (i : S480x1600.Idx)
    (k : dot_S480x92_S92x1600_S480x1600_1_0_0_1_n_n.contr.Idx) :
    (dot_S480x92_S92x1600_S480x1600_1_0_0_1_n_n.lhsIdx i k 0 : ℕ) = i 0 := by
  simp [DotDims.lhsIdx, dot_S480x92_S92x1600_S480x1600_1_0_0_1_n_n]; rfl
theorem lhs_dot_S480x92_S92x1600_S480x1600_1_0_0_1_n_n_1 (i : S480x1600.Idx)
    (k : dot_S480x92_S92x1600_S480x1600_1_0_0_1_n_n.contr.Idx) :
    (dot_S480x92_S92x1600_S480x1600_1_0_0_1_n_n.lhsIdx i k 1 : ℕ) = k ⟨0, by decide⟩ := by
  simp [DotDims.lhsIdx, dot_S480x92_S92x1600_S480x1600_1_0_0_1_n_n]; rfl
theorem rhs_dot_S480x92_S92x1600_S480x1600_1_0_0_1_n_n_0 (i : S480x1600.Idx)
    (k : dot_S480x92_S92x1600_S480x1600_1_0_0_1_n_n.contr.Idx) :
    (dot_S480x92_S92x1600_S480x1600_1_0_0_1_n_n.rhsIdx i k 0 : ℕ) = k ⟨0, by decide⟩ := by
  simp [DotDims.rhsIdx, dot_S480x92_S92x1600_S480x1600_1_0_0_1_n_n]; rfl
theorem rhs_dot_S480x92_S92x1600_S480x1600_1_0_0_1_n_n_1 (i : S480x1600.Idx)
    (k : dot_S480x92_S92x1600_S480x1600_1_0_0_1_n_n.contr.Idx) :
    (dot_S480x92_S92x1600_S480x1600_1_0_0_1_n_n.rhsIdx i k 1 : ℕ) = i 1 := by
  simp [DotDims.rhsIdx, dot_S480x92_S92x1600_S480x1600_1_0_0_1_n_n]; rfl

variable (p : Fin 480) (j : Fin 1600)

/-- The left operand's index at output `(p, j)` and contraction position `k` is `(p, k)`. -/
theorem lhsIdx_apply (k : Fin 92) :
    dot_S480x92_S92x1600_S480x1600_1_0_0_1_n_n.lhsIdx (ix2 p j)
        ((contrEquiv1 dot_S480x92_S92x1600_S480x1600_1_0_0_1_n_n 92 rfl rfl).symm k) = ix2 p k := by
  funext a
  apply Fin.ext
  match a with
  | ⟨0, _⟩ => exact lhs_dot_S480x92_S92x1600_S480x1600_1_0_0_1_n_n_0 _ _
  | ⟨1, _⟩ =>
    exact (lhs_dot_S480x92_S92x1600_S480x1600_1_0_0_1_n_n_1 _ _).trans
      (contrEquiv1_symm_val dot_S480x92_S92x1600_S480x1600_1_0_0_1_n_n 92 rfl rfl k)

/-- The right operand's is `(k, j)`. -/
theorem rhsIdx_apply (k : Fin 92) :
    dot_S480x92_S92x1600_S480x1600_1_0_0_1_n_n.rhsIdx (ix2 p j)
        ((contrEquiv1 dot_S480x92_S92x1600_S480x1600_1_0_0_1_n_n 92 rfl rfl).symm k) = ix2 k j := by
  funext a
  apply Fin.ext
  match a with
  | ⟨0, _⟩ =>
    exact (rhs_dot_S480x92_S92x1600_S480x1600_1_0_0_1_n_n_0 _ _).trans
      (contrEquiv1_symm_val dot_S480x92_S92x1600_S480x1600_1_0_0_1_n_n 92 rfl rfl k)
  | ⟨1, _⟩ => exact rhs_dot_S480x92_S92x1600_S480x1600_1_0_0_1_n_n_1 _ _

/-- The 480 × 92 by 92 × 1600 product into a zero block, at `(p, j)`: the sum over the 92 classes. -/
theorem product_apply (a : FVec Ideal S480x92 .bf16) (b : FVec Ideal S92x1600 .bf16) :
    matmul dot_S480x92_S92x1600_S480x1600_1_0_0_1_n_n none a b (constant S480x1600 .f32 0x00000000#32) (ix2 p j)
      = ∑ k : Fin 92, a (ix2 p k) * b (ix2 k j) := by
  show FloatOps.matmul dot_S480x92_S92x1600_S480x1600_1_0_0_1_n_n none a b (constant S480x1600 .f32 0x00000000#32) (ix2 p j) = _
  rw [Ideal.matmul_constant_zero_apply,
    ← Equiv.sum_comp (contrEquiv1 dot_S480x92_S92x1600_S480x1600_1_0_0_1_n_n 92 rfl rfl).symm]
  exact Finset.sum_congr rfl fun k _ => by rw [lhsIdx_apply, rhsIdx_apply]
end Product

/-! ## The class term and the assembled cost -/

section Assembly
variable (x0 : Vec Ideal S480x92 .f32) (x1 : Vec Ideal S480x4 .f32) (x2 : Vec Ideal S92x1600 .bf16)
  (x3 x4 : Vec Ideal S4x1600 .f32) (p : Fin 480) (j : Fin 1600)

/-- The class term's block: zero minus the product of the softmax block with the indicator block. -/
theorem classTerm_eq :
    k0_pay2 (F := Ideal) x0 x2
      = subf (broadcast S480x1600 Cert.Spec.zero)
          (matmul (φ₂ := .bf16) dot_S480x92_S92x1600_S480x1600_1_0_0_1_n_n none (truncf .bf16 (smProb x0) bitsLt_bf16_f32) x2
            (constant S480x1600 .f32 0x00000000#32)) := by
  unfold k0_pay2
  rw [shapeCast_self, shapeCast_self]
  rfl

theorem classTerm_apply :
    k0_pay2 (F := Ideal) x0 x2 (ix2 p j)
      = Cert.Spec.zero - ∑ k : Fin 92, Cert.Spec.prob (fun k => x0 (ix2 p k)) k * x2 (ix2 k j) := by
  rw [classTerm_eq, subf_apply, broadcast_apply, product_apply]
  exact congrArg _ (Finset.sum_congr rfl fun k _ => by rw [truncf_apply, smProb_apply])

/-- The last named value of the body at `(p, j)`: the hull from its parts, then the weighted combination. -/
theorem combine_apply (v16 v47 : FVec Ideal S480x1600 .f32) (v53 v56 v59 : FVec Ideal S480x1 .f32)
    (v63 v64 v65 : FVec Ideal S1x1600 .f32) (v94 v95 v98 : FVec Ideal S480x1600 .f32) :
    k0_pay1 v16 v47 v53 v56 v59 v63 v64 v65 v94 v95 v98 (ix2 p j)
      = (Cert.Spec.five * v47 (ix2 p j) + Cert.Spec.one * v16 (ix2 p j))
          + Cert.Spec.two * (Cert.Spec.zero - (v95 (ix2 p j)
              - Ideal.div
                  (max Cert.Spec.zero (max (v56 (ix2 p (0 : Fin 1))) (v64 (ix2 (0 : Fin 1) j)) - v98 (ix2 p j))
                      * max Cert.Spec.zero (max (v59 (ix2 p (0 : Fin 1))) (v65 (ix2 (0 : Fin 1) j))
                          - min (v53 (ix2 p (0 : Fin 1))) (v63 (ix2 (0 : Fin 1) j)))
                    - v94 (ix2 p j))
                  (max Cert.Spec.zero (max (v56 (ix2 p (0 : Fin 1))) (v64 (ix2 (0 : Fin 1) j)) - v98 (ix2 p j))
                      * max Cert.Spec.zero (max (v59 (ix2 p (0 : Fin 1))) (v65 (ix2 (0 : Fin 1) j))
                          - min (v53 (ix2 p (0 : Fin 1))) (v63 (ix2 (0 : Fin 1) j)))))) := by
  unfold k0_pay1
  simp only [addf_apply, mulf_apply, subf_apply, divf_apply, maximumf_apply, minimumf_apply, broadcast_apply,
    bcol_apply, brow_apply]
  rfl
end Assembly

end BlockValue

open BlockValue in
/-- THE BLOCK AT AN INDEX: entry `(p, j)` of the stored block is the matching cost of query `p` against target `j`. -/
theorem outBlk_apply (x0 : Vec Ideal S480x92 .f32) (x1 : Vec Ideal S480x4 .f32) (x2 : Vec Ideal S92x1600 .bf16)
    (x3 x4 : Vec Ideal S4x1600 .f32) (p : Fin 480) (j : Fin 1600) :
    outBlk (F := Ideal) x0 x1 x2 x3 x4 (ix2 p j)
      = Cert.Spec.costK (fun k => x0 (ix2 p k)) (fun c => x1 (ix2 p c)) (fun k => x2 (ix2 k j))
          (fun c => x3 (ix2 c j)) (fun c => x4 (ix2 c j)) := by
  unfold outBlk
  rw [combine_apply, classTerm_apply, l1_apply, corner1_apply, corner2_apply, corner3_apply, trow1_apply, trow2_apply,
    trow3_apply, union_apply, iou_apply, hullLeft_apply]
  rfl

end Cert.KernelIdeal.Hand
end
-- ==== Proof.KIEntry.lean ====
import proofs.«427664_j48163763258165_1_alg».proof.Proof.KIHost
import proofs.«427664_j48163763258165_1_alg».proof.Proof.Spec
import Idealize.ShloMosaic.Lib.ValueIdx
import Idealize.ShloMosaic.Lib.Pipeline.Value
import Idealize.ShloMosaic.Lib.StableHlo.Run
import Idealize.ShloMosaic.Lib.StableHlo.Predicate

/-!
# What five buffers hold when the region is entered

Before the region, @main computes five arrays from its four arguments (logits `[16, 900, 92]`, boxes `[16, 900, 4]`,
target ids `[1600]`, target boxes `[1600, 4]` in centre-size form):

* the logits and the boxes with their two leading axes merged, `[14400, 92]` and `[14400, 4]`;
* the class-indicator matrix `[92, 1600]`: entry `(k, j)` is 1 when class `k` is target `j`'s id and 0 otherwise
  (an iota down the rows compared for equality with the ids along the columns, the bit converted to a number);
* the target boxes transposed, `[4, 1600]`;
* the target boxes in corner form, transposed, `[4, 1600]`: row `u`, column `j` is corner coordinate `u` of target `j`,
  `(cx − ½·w, cy − ½·h, cx + ½·w, cy + ½·h)`, each coordinate computed as a vector over the targets from the
  columns of the target array, the four vectors laid side by side as columns and the result transposed.

Each theorem reads the buffer, as the forty host operations leave it, as a function of the argument arrays.
-/

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

/-! ## The merged logits and boxes, and the transposed targets (any float instance) -/

section generic
variable {F : FTy → Type} [FloatOps F] (m : (ℓ : Loc nD τ sig) → Buf (Elt F) ℓ)

set_option maxHeartbeats 1000000 in
/-- The logits with their two leading axes merged. -/
theorem entry_logits (c : Dev nD) :
    atEntry m c main_v0 = shapeCast S14400x92 (m ((c : Thread nD τ).loc main_arg0)) shapeCasts_S16x900x92_S14400x92 := by
  show StableHlo.after hostOps0 (fun b => m (c, b)) (Proc.devRef .tc main_v0) = _
  after_results
  rfl

set_option maxHeartbeats 1000000 in
/-- The boxes with their two leading axes merged. -/
theorem entry_boxes (c : Dev nD) :
    atEntry m c main_v1 = shapeCast S14400x4 (m ((c : Thread nD τ).loc main_arg1)) shapeCasts_S16x900x4_S14400x4 := by
  show StableHlo.after hostOps0 (fun b => m (c, b)) (Proc.devRef .tc main_v1) = _
  after_results
  rfl

set_option maxHeartbeats 1000000 in
/-- The target boxes transposed: row `u`, column `j` is coordinate `u` of target `j`. -/
theorem entry_tgt_apply (c : Dev nD) (u : Fin 4) (j : Fin 1600) :
    atEntry m c main_v34 (ix2 u j) = m ((c : Thread nD τ).loc main_arg3) (ix2 j u) := by
  show StableHlo.after hostOps0 (fun b => m (c, b)) (Proc.devRef .tc main_v34) (ix2 u j) = _
  after_results
  exact transpose_apply _ _ _ _ _ (fun b => match b with | ⟨0, _⟩ => rfl | ⟨1, _⟩ => rfl)

end generic

/-! ## The class-indicator matrix -/

/-- A one-bit equality test converted to a number: 1 when the two words are equal, 0 otherwise. -/
theorem uitofp_cmpi_eq (a b : BitVec 32) :
    (FloatOps.uitofp (F := Ideal) .bf16 (IntOp.cmpi .eq a b) : EReal) = if a = b then 1 else 0 := by
  by_cases h : a = b
  · rw [if_pos h, StableHlo.Predicate.cmpi_eq_iff.mpr h]
    show (((1#1 : BitVec 1).toNat : ℝ) : EReal) = 1
    norm_num
  · rw [if_neg h, eq_zero_of_ne_one (mt StableHlo.Predicate.cmpi_eq_iff.mp h)]
    show (((0#1 : BitVec 1).toNat : ℝ) : EReal) = 0
    norm_num

set_option maxHeartbeats 1000000 in
/-- The class-indicator matrix: entry `(k, j)` is 1 when class `k` is target `j`'s id, else 0. -/
theorem entry_hot_apply (m : (ℓ : Loc nD τ sig) → Buf (Elt Ideal) ℓ) (c : Dev nD) (k : Fin 92) (j : Fin 1600) :
    atEntry m c main_v8 (ix2 k j) = if BitVec.ofNat 32 k.val = m ((c : Thread nD τ).loc main_arg2) (ix1 j) then (1 : EReal) else 0 := by
  show StableHlo.after hostOps0 (fun b => m (c, b)) (Proc.devRef .tc main_v8) (ix2 k j) = _
  after_results
  have e1 : broadcastInDim S92x1600 ![0, 1] bcast_S92x1_S92x1600_0_1
      (broadcastInDim S92x1 ![0] bcast_S92_S92x1_0 (iotaInDim S92 32 0)) (ix2 k j) = BitVec.ofNat 32 k.val :=
    (broadcastInDim_apply _ _ _ (ix2 k j) (ix2 k (0 : Fin 1)) (fun a => match a with | ⟨0, _⟩ => rfl | ⟨1, _⟩ => rfl)).trans
      (broadcastInDim_apply _ _ _ (ix2 k (0 : Fin 1)) (ix1 k) (fun a => match a with | ⟨0, _⟩ => rfl))
  have e2 : broadcastInDim S92x1600 ![0, 1] bcast_S1x1600_S92x1600_0_1
      (broadcastInDim S1x1600 ![1] bcast_S1600_S1x1600_1 (m (c, Proc.devRef .tc main_arg2))) (ix2 k j)
        = m ((c : Thread nD τ).loc main_arg2) (ix1 j) :=
    (broadcastInDim_apply _ _ _ (ix2 k j) (ix2 (0 : Fin 1) j) (fun a => match a with | ⟨0, _⟩ => rfl | ⟨1, _⟩ => rfl)).trans
      (broadcastInDim_apply _ _ _ (ix2 (0 : Fin 1) j) (ix1 j) (fun a => match a with | ⟨0, _⟩ => rfl))
  refine (uitofp_cmpi_eq _ _).trans ?_
  rw [e1, e2]

/-! ## The targets' corner boxes -/

/-- Rewrites each host operation's result: at its own buffer to its function's value, at any other buffer to what was
    there before. -/
local macro "host_results" : tactic =>
  `(tactic| repeat (first
      | rw [StableHlo.nullary_result] | rw [StableHlo.unary_result] | rw [StableHlo.binary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)))

section concat
variable {F : FTy → Type} [FloatOps F]

/-- The concatenation of the four corner columns holds the concatenation of what the four column buffers hold. -/
theorem concat_result (hxs hy) (V : Valuation τ sig (Elt F)) :
    (StableHlo.nary (τ := τ) ![main_v29, main_v30, main_v31, main_v32] main_v33
        (fun u => concatenate S1600x4 1 [⟨S1600x1, u 0⟩, ⟨S1600x1, u 1⟩, ⟨S1600x1, u 2⟩, ⟨S1600x1, u 3⟩]
          concatenates_S1600x1_S1600x1_S1600x1_S1600x1_S1600x4_d1) hxs hy).result V (Proc.devRef .tc main_v33)
      = (concatenate S1600x4 1 [⟨S1600x1, (V (Proc.devRef .tc main_v29) : S1600x1.Idx → Elt F .f32)⟩,
          ⟨S1600x1, (V (Proc.devRef .tc main_v30) : S1600x1.Idx → Elt F .f32)⟩,
          ⟨S1600x1, (V (Proc.devRef .tc main_v31) : S1600x1.Idx → Elt F .f32)⟩,
          ⟨S1600x1, (V (Proc.devRef .tc main_v32) : S1600x1.Idx → Elt F .f32)⟩]
          concatenates_S1600x1_S1600x1_S1600x1_S1600x1_S1600x4_d1 : S1600x4.Idx → Elt F .f32) := by
  rw [StableHlo.nary_result]; rfl

end concat

/-- Column `v` of a `[1600, 4]` array, cut out as a `[1600, 1]` slice and flattened to a vector, reads at `j` the
    array's entry `(j, v)`. -/
theorem column_apply {α : Type} (x : S1600x4.Idx → α) (off : Fin S1600x4.rank → Nat) (hs : S1600x4.Slices off S1600x1)
    (v : Fin 4) (h0 : off 0 = 0) (h1 : off 1 = v.val) (j : Fin 1600) :
    shapeCast S1600 (extractStridedSlice S1600x1 off x hs) shapeCasts_S1600x1_S1600 (ix1 j) = x (ix2 j v) :=
  (shapeCast_apply _ _ (ix1 j) (ix2 j (0 : Fin 1)) (by
      rw [Shape.rowMajor_val_two, Shape.rowMajor_val_one]
      show j.val * 1 + 0 = j.val
      omega)).trans
    (extractStridedSlice_apply off x hs (ix2 j (0 : Fin 1)) (ix2 j v) (fun a => match a with
      | ⟨0, _⟩ => by show j.val = off 0 + j.val; rw [h0]; omega
      | ⟨1, _⟩ => by show v.val = off 1 + 0; rw [h1]; omega))

/-- Four columns laid side by side and the result transposed: row `u`, column `j` is column `u` at row `j`. -/
theorem transpose_concat4_apply {α : Type} (x0 x1 x2 x3 : S1600x1.Idx → α) (u : Fin 4) (j : Fin 1600) :
    transpose S4x1600 [1, 0]
        (concatenate S1600x4 1 [⟨S1600x1, x0⟩, ⟨S1600x1, x1⟩, ⟨S1600x1, x2⟩, ⟨S1600x1, x3⟩]
          concatenates_S1600x1_S1600x1_S1600x1_S1600x1_S1600x4_d1)
        transposes_S1600x4_S4x1600_1_0 (ix2 u j)
      = (match u with | ⟨0, _⟩ => x0 | ⟨1, _⟩ => x1 | ⟨2, _⟩ => x2 | ⟨3, _⟩ => x3) (ix2 j (0 : Fin 1)) := by
  refine (transpose_apply _ _ _ (ix2 u j) (ix2 j u) (fun b => match b with | ⟨0, _⟩ => rfl | ⟨1, _⟩ => rfl)).trans ?_
  match u with
  | ⟨0, _⟩ =>
    exact concatenate_apply_piece _ _ _ (ix2 j (0 : Fin 4)) 0 (by show 0 < 4; decide) S1600x1 _ rfl rfl 0 rfl (ix2 j (0 : Fin 1))
      (fun b hb => match b, hb with | ⟨0, _⟩, _ => rfl | ⟨1, _⟩, hb => absurd (Fin.ext rfl) hb) rfl
  | ⟨1, _⟩ =>
    exact concatenate_apply_piece _ _ _ (ix2 j (1 : Fin 4)) 1 (by show 1 < 4; decide) S1600x1 _ rfl rfl 1 rfl (ix2 j (0 : Fin 1))
      (fun b hb => match b, hb with | ⟨0, _⟩, _ => rfl | ⟨1, _⟩, hb => absurd (Fin.ext rfl) hb) rfl
  | ⟨2, _⟩ =>
    exact concatenate_apply_piece _ _ _ (ix2 j (2 : Fin 4)) 2 (by show 2 < 4; decide) S1600x1 _ rfl rfl 2 rfl (ix2 j (0 : Fin 1))
      (fun b hb => match b, hb with | ⟨0, _⟩, _ => rfl | ⟨1, _⟩, hb => absurd (Fin.ext rfl) hb) rfl
  | ⟨3, _⟩ =>
    exact concatenate_apply_piece _ _ _ (ix2 j (3 : Fin 4)) 3 (by show 3 < 4; decide) S1600x1 _ rfl rfl 3 rfl (ix2 j (0 : Fin 1))
      (fun b hb => match b, hb with | ⟨0, _⟩, _ => rfl | ⟨1, _⟩, hb => absurd (Fin.ext rfl) hb) rfl

/-- A vector minus a broadcast scalar constant times a vector, read at an index. -/
theorem sub_scaled_apply (A B : FVec Ideal S1600 .f32) (w : BitVec 32) (i : S1600.Idx) (a b : EReal)
    (ha : A i = a) (hb : B i = b) :
    subf A (mulf (broadcastInDim S1600 ![] bcast_S_S1600 (constant (F := Ideal) S_ .f32 w)) B) i
      = a - Ideal.ofBits .f32 w * b := by
  subst ha hb; rfl

/-- A vector plus a broadcast scalar constant times a vector, read at an index. -/
theorem add_scaled_apply (A B : FVec Ideal S1600 .f32) (w : BitVec 32) (i : S1600.Idx) (a b : EReal)
    (ha : A i = a) (hb : B i = b) :
    addf A (mulf (broadcastInDim S1600 ![] bcast_S_S1600 (constant (F := Ideal) S_ .f32 w)) B) i
      = a + Ideal.ofBits .f32 w * b := by
  subst ha hb; rfl

set_option maxHeartbeats 4000000 in
/-- The targets' corner boxes, transposed: row `u`, column `j` is corner coordinate `u` of target `j`. -/
theorem entry_corners_apply (m : (ℓ : Loc nD τ sig) → Buf (Elt Ideal) ℓ) (c : Dev nD) (u : Fin 4) (j : Fin 1600) :
    atEntry m c main_v35 (ix2 u j) = Cert.Spec.xyxy (fun v => m ((c : Thread nD τ).loc main_arg3) (ix2 j v)) u := by
  show StableHlo.after hostOps0 (fun b => m (c, b)) (Proc.devRef .tc main_v35) (ix2 u j) = _
  simp only [StableHlo.after_cons, StableHlo.after_nil]
  rw [StableHlo.unary_result]
  rw [StableHlo.unary_result_ne]; rotate_left; decide
  rw [concat_result]
  host_results
  -- row u of the transposed concatenation is column u; each column is a vector laid out as [1600, 1]
  refine (transpose_concat4_apply _ _ _ _ u j).trans ?_
  match u with
  | ⟨0, _⟩ =>
    refine (broadcastInDim_apply _ _ _ (ix2 j (0 : Fin 1)) (ix1 j) (fun a => match a with | ⟨0, _⟩ => rfl)).trans ?_
    exact sub_scaled_apply _ _ _ _ _ _ (column_apply _ _ _ 0 rfl rfl j) (column_apply _ _ _ 2 rfl rfl j)
  | ⟨1, _⟩ =>
    refine (broadcastInDim_apply _ _ _ (ix2 j (0 : Fin 1)) (ix1 j) (fun a => match a with | ⟨0, _⟩ => rfl)).trans ?_
    exact sub_scaled_apply _ _ _ _ _ _ (column_apply _ _ _ 1 rfl rfl j) (column_apply _ _ _ 3 rfl rfl j)
  | ⟨2, _⟩ =>
    refine (broadcastInDim_apply _ _ _ (ix2 j (0 : Fin 1)) (ix1 j) (fun a => match a with | ⟨0, _⟩ => rfl)).trans ?_
    exact add_scaled_apply _ _ _ _ _ _ (column_apply _ _ _ 0 rfl rfl j) (column_apply _ _ _ 2 rfl rfl j)
  | ⟨3, _⟩ =>
    refine (broadcastInDim_apply _ _ _ (ix2 j (0 : Fin 1)) (ix1 j) (fun a => match a with | ⟨0, _⟩ => rfl)).trans ?_
    exact add_scaled_apply _ _ _ _ _ _ (column_apply _ _ _ 1 rfl rfl j) (column_apply _ _ _ 3 rfl rfl j)

end Cert.KernelIdeal.Hand

end
-- ==== Proof.SpecMatrix.lean ====
import proofs.«427664_j48163763258165_1_alg».proof.Proof.Spec
import Idealize.ShloMosaic.Lib.Pipeline.Value

/-!
# The cost matrix and the cost tensor, as functions of the four inputs

Row `r = b · 900 + q` of the logits and of the query boxes is the row `(b, q)` of the rank-3 inputs (the row-major
reshape to 14400 rows); entry `(r, j)` of the cost matrix is the cost of that row against target `j`; the result tensor
is the matrix reshaped back to `[16, 900, 1600]`.
-/

noncomputable section

namespace Cert.Spec

open Idealize.ShloMosaic Idealize.ShloMosaic.ValueIdx

abbrev SLogits3 : Shape := ⟨3, ![16, 900, 92]⟩
abbrev SBoxes3 : Shape := ⟨3, ![16, 900, 4]⟩
abbrev SLogits2 : Shape := ⟨2, ![14400, 92]⟩
abbrev SBoxes2 : Shape := ⟨2, ![14400, 4]⟩
abbrev SIds : Shape := ⟨1, ![1600]⟩
abbrev STgt : Shape := ⟨2, ![1600, 4]⟩
abbrev SCost2 : Shape := ⟨2, ![14400, 1600]⟩
abbrev SCost3 : Shape := ⟨3, ![16, 900, 1600]⟩

theorem castLogits : SLogits3.ShapeCasts SLogits2 := by decide
theorem castBoxes : SBoxes3.ShapeCasts SBoxes2 := by decide
theorem castCost : SCost2.ShapeCasts SCost3 := by decide

variable (a0 : SLogits3.Idx → EReal) (a1 : SBoxes3.Idx → EReal) (a2 : SIds.Idx → BitVec 32) (a3 : STgt.Idx → EReal)

/-- The cost of flattened query row `r` against target `j`. -/
def costAt (r : Fin 14400) (j : Fin 1600) : EReal :=
  cost (fun k => shapeCast SLogits2 a0 castLogits (ix2 r k)) (fun v => shapeCast SBoxes2 a1 castBoxes (ix2 r v))
    (a2 (ix1 j)) (fun v => a3 (ix2 j v))

/-- The [14400, 1600] cost matrix. -/
def costMatrix : SCost2.Idx → EReal := fun i => costAt a0 a1 a2 a3 ⟨(i 0).val, idx2_lt0 i⟩ ⟨(i 1).val, idx2_lt1 i⟩

theorem costMatrix_ix2 (r : Fin 14400) (j : Fin 1600) : costMatrix a0 a1 a2 a3 (ix2 r j) = costAt a0 a1 a2 a3 r j := rfl

/-- The [16, 900, 1600] cost tensor. -/
def costTensor : SCost3.Idx → EReal := shapeCast SCost3 (costMatrix a0 a1 a2 a3) castCost

end Cert.Spec

end
-- ==== Proof.KIValue.lean ====
import proofs.«427664_j48163763258165_1_alg».proof.Proof.KIBlocks
import proofs.«427664_j48163763258165_1_alg».proof.Proof.KIBlockValue
import proofs.«427664_j48163763258165_1_alg».proof.Proof.KIEntry
import proofs.«427664_j48163763258165_1_alg».proof.Proof.SpecMatrix
import Idealize.ShloMosaic.Lib.StableHlo.Run

/-!
# The idealized kernel's result is the cost tensor

Entry `(p, j)` of the block point `t` stores is the cost of flattened query row `480 t + p` against target `j`: the body's
arithmetic at an index, with the class-indicator column of a label contracted to the probability at the label and the
target columns read off the transposed target arrays. The thirty blocks tile the result matrix, so after the run it is
the cost matrix; the host suffix reshapes it to the cost tensor.
-/
set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! ## What a grid point writes back -/

/-- Every class id of the launch memory is a label. -/
def IdsOk : Prop := ∀ (c : Dev nD) (j : Fin 1600), Cert.Spec.IdOk (m ((c : Thread nD τ).loc main_arg2) (ix1 j))

/-- Entry `(p, j)` of the block point `t` stores is the cost of flattened row `480 t + p` against target `j`. -/
theorem stored_apply (hid : IdsOk m) (c : Dev nD) (t : Fin cfg0.N) (p : Fin 480) (j : Fin 1600) :
    outBlk (F := Ideal) (blockAt m c 0 t) (blockAt m c 1 t) (blockAt m c 2 t) (blockAt m c 3 t) (blockAt m c 4 t) (ix2 p j)
      = Cert.Spec.costAt (m ((c : Thread nD τ).loc main_arg0)) (m ((c : Thread nD τ).loc main_arg1)) (m ((c : Thread nD τ).loc main_arg2)) (m ((c : Thread nD τ).loc main_arg3)) (⟨t.val * 480 + p.val, by have := point_lt t; have := p.isLt; omega⟩ : Fin 14400) j := by
  rw [outBlk_apply]
  unfold Cert.Spec.costAt
  rw [Cert.Spec.costK_eq_cost _ _ (m ((c : Thread nD τ).loc main_arg2) (ix1 j)) (fun v => m ((c : Thread nD τ).loc main_arg3) (ix2 j v)) _ _ _ (hid c j)
    (fun k => by rw [hot_block, entry_hot_apply])
    (funext fun v => by rw [tgt_block, entry_tgt_apply])
    (funext fun v => by rw [corners_block, entry_corners_apply])]
  have hx : (fun k : Fin 92 => (blockAt m c 0 t (ix2 p k) : EReal))
      = fun k => shapeCast Cert.Spec.SLogits2 (m ((c : Thread nD τ).loc main_arg0)) Cert.Spec.castLogits (ix2 (⟨t.val * 480 + p.val, by have := point_lt t; have := p.isLt; omega⟩ : Fin 14400) k) :=
    funext fun k => by rw [logits_block, entry_logits]
  have hb : (fun v : Fin 4 => (blockAt m c 1 t (ix2 p v) : EReal))
      = fun v => shapeCast Cert.Spec.SBoxes2 (m ((c : Thread nD τ).loc main_arg1)) Cert.Spec.castBoxes (ix2 (⟨t.val * 480 + p.val, by have := point_lt t; have := p.isLt; omega⟩ : Fin 14400) v) :=
    funext fun v => by rw [boxes_block, entry_boxes]
  exact congrArg₂ (fun a b => Cert.Spec.cost a b (m ((c : Thread nD τ).loc main_arg2) (ix1 j)) (fun v => m ((c : Thread nD τ).loc main_arg3) (ix2 j v))) hx hb

/-- WHAT POINT `t` WRITES BACK is block `t` of the cost matrix. -/
theorem flushed_eq (hid : IdsOk m) (c : Dev nD) (t : Fin cfg0.N) :
    (dats m 0 c).flushed 5 t = ((cfg0.win 5).blk t).view.read (Elt Ideal) (Cert.Spec.costMatrix (m ((c : Thread nD τ).loc main_arg0)) (m ((c : Thread nD τ).loc main_arg1)) (m ((c : Thread nD τ).loc main_arg2)) (m ((c : Thread nD τ).loc main_arg3))) := by
  show (cfg0.win 5).cut (grid0.coords t) ((dats m 0 c).after 5 t) = _
  rw [after5]
  show (cfg0.win 5).cut (grid0.coords t) (stored (blockAt m c 0 t) (blockAt m c 1 t) (blockAt m c 2 t) (blockAt m c 3 t) (blockAt m c 4 t)) = _
  rw [stored_eq]
  funext y
  obtain ⟨e10, e11⟩ : win0_5.index t (0 : Fin 2) = t.val ∧ win0_5.index t (1 : Fin 2) = 0 := by
    obtain ⟨-, -, -, -, -, -, -, -, -, -, h⟩ := index_facts t; exact h
  have hy : (y : S480x1600.Idx) = ix2 (⟨(y 0).val, idx2_lt0 (n0 := 480) (n1 := 1600) y⟩ : Fin 480) (⟨(y 1).val, idx2_lt1 (n0 := 480) (n1 := 1600) y⟩ : Fin 1600) := eq_ix2 y
  show outBlk (F := Ideal) (blockAt m c 0 t) (blockAt m c 1 t) (blockAt m c 2 t) (blockAt m c 3 t) (blockAt m c 4 t) y
      = Cert.Spec.costMatrix (m ((c : Thread nD τ).loc main_arg0)) (m ((c : Thread nD τ).loc main_arg1)) (m ((c : Thread nD τ).loc main_arg2)) (m ((c : Thread nD τ).loc main_arg3)) (((cfg0.win 5).blk t).view.emb y)
  rw [hy, stored_apply m hid c t]
  refine (Cert.Spec.costMatrix_ix2 _ _ _ _ _ _).symm.trans (congrArg _ ?_)
  funext a; apply Fin.ext
  match a with
  | ⟨0, _⟩ => show t.val * 480 + (y 0).val = win0_5.index t (0 : Fin 2) * 480 + 1 * (y 0).val; omega
  | ⟨1, _⟩ => show (y 1).val = win0_5.index t (1 : Fin 2) * 1600 + 1 * (y 1).val; omega

/-- THE RESULT ARRAY OF THE REGION after the run is the cost matrix. -/
theorem final_matrix (hid : IdsOk m) (c : Dev nD) :
    (dats m 0 c).arrAt 5 cfg0.N = Cert.Spec.costMatrix (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed_eq m hid c t) covered

/-! ## The host suffix reshapes it, and the run -/

/-- After the suffix the result tensor is the cost matrix reshaped. -/
theorem result_eq (hid : IdsOk m) (c : Dev nD) :
    Pipeline.afterTail₀ cfgs (dats m) 0 (atEntry0 m) [hostOps1] c main_v37 = Cert.Spec.costTensor (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v37) = _
  after_results
  rw [Pipeline.withArrays_arr spec0 launch0.win.arr_inj c _ _ 5, final_matrix m hid c]
  rfl

/-- THE RUN, READ: every weakly fair execution of the idealized kernel's @main terminates with the result at the cost
    tensor of the launch arguments, and the arguments unchanged. -/
theorem value_run (hid : IdsOk m) : θ_run defs (onTc (τ := τ) (main (F := Ideal))) ⟨m, fun _ => 0, ρ⟩ (fun r => ∀ c : Dev nD,
      r.2.mem ((c.tc : Thread nD τ).loc main_v37) = Cert.Spec.costTensor (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v37 (Pipeline.mem_restRefs_of main_v37 (by decide) (by decide))).trans (result_eq m hid c),
     ((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c),
     ((h c).2 main_arg3 (Pipeline.mem_restRefs_of main_arg3 (by decide) (by decide))).trans (exit_arg3 m (dats m) c)⟩)
    (run_main m ρ)

end Cert.KernelIdeal.Hand

end
-- ==== Proof.RefValue.lean ====
import proofs.«427664_j48163763258165_1_alg».proof.Proof.Gen.ReferenceIdeal.Read
import proofs.«427664_j48163763258165_1_alg».proof.Proof.Spec
import Idealize.ShloMosaic.Lib.ValueIdx
import Idealize.ShloMosaic.Lib.Pipeline.Value
import Idealize.ShloMosaic.PureOps.Ideal.Laws
import Idealize.ShloMosaic.PureOps.Reduce

/-!
# The reference's cost matrix, one entry at a time

The reference computes, for query row `r` (of the 14400 flattened batch × query rows) and target `j`,

  C[r, j] = 5 · ‖box_r − tgt_j‖₁ + 1 · (−softmax(logits_r)[id_j]) + 2 · (−GIoU(xyxy box_r, xyxy tgt_j)).

This file reads the reference's stages at explicit coordinates, bottom-up, each against the matching scalar
definition of `Cert.Spec`: the row maximum (a fold of `max` from −∞), the shifted exponentials, their sum (from a zero
initial value, so `0 + s = s`), the probability, the gathered class entry (the start index of a label word in
`[0, 92)` is the word itself, so the clamp into `[0, 91]` does nothing and the column read is the label's class), the
L1 distance (a sum of four terms from zero), the corner boxes (four columns laid side by side), the two areas, the
intersection, the union, the enclosing box, the generalized IoU, and the weighted combination. A negation is
`0 − x`. No finiteness of any input is used: only `0 + x = x`, `0 − x = −x`, and that −∞ is neutral for `max`.
-/

noncomputable section

namespace Cert.ReferenceIdeal.RefValue

open Cert.ReferenceIdeal Cert.ReferenceIdeal.Gen Cert.ReferenceIdeal.Read Idealize.ShloMosaic Idealize.ShloMosaic.ValueIdx

/-! ## The gather of the probability at the label -/

section gather

/-- The gather's dimension numbers: operand `[14400, 92]`, start indices `[1600, 1]`, result `[14400, 1600]`. -/
abbrev GD : GatherDims S14400x92 S1600x1 S14400x1600 := gather_S14400x92_S1600x1_S14400x1600_0_1_n_n_1_1_144001

/-- The gather read at `(r, j)`: row `r` of the operand at the column that start index `j` names, read signed and
    clamped into `[0, 91]`. -/
theorem gather_at {α : Type} (x : S14400x92.Idx → α) (idx : IVec S1600x1 32) (r : Fin 14400) (j : Fin 1600) :
    Host.gather GD x idx (ix2 r j)
      = x (ix2 r (⟨min (idx (ix2 j (0 : Fin 1))).toInt.toNat 91, by omega⟩ : Fin 92)) := by
  unfold Host.gather
  congr 1
  funext a
  refine Fin.ext ?_
  show GD.start (ix2 r j) idx a + GD.batchCoord (ix2 r j) a + GD.offCoord (ix2 r j) a = _
  rw [GatherDims.batchCoord_eq_zero _ _ _ List.not_mem_nil]
  match a with
  | ⟨0, _⟩ =>
    have hs : GD.start (ix2 r j) idx (0 : Fin 2) = 0 := by
      unfold GatherDims.start
      exact dif_neg (by decide)
    have ho : GD.offCoord (ix2 r j) (0 : Fin 2) = r.val := by
      unfold GatherDims.offCoord
      rw [dif_pos (by decide)]
      rfl
    show GD.start (ix2 r j) idx (0 : Fin 2) + 0 + GD.offCoord (ix2 r j) (0 : Fin 2) = r.val
    rw [hs, ho, Nat.add_zero, Nat.zero_add]
  | ⟨1, _⟩ =>
    have ho : GD.offCoord (ix2 r j) (1 : Fin 2) = 0 :=
      GatherDims.offCoord_eq_zero _ _ _ (by decide)
    have hs : GD.start (ix2 r j) idx (1 : Fin 2) = min (idx (ix2 j (0 : Fin 1))).toInt.toNat 91 := by
      unfold GatherDims.start
      rw [dif_pos (by decide)]
      have hsi : GD.siIdx (ix2 r j) ⟨List.idxOf (1 : Fin 2) GD.startIndexMap,
          List.idxOf_lt_length_iff.2 (by decide)⟩ = ix2 j (0 : Fin 1) := by
        funext b; refine Fin.ext ?_
        match b with
        | ⟨0, _⟩ => rfl
        | ⟨1, _⟩ => rfl
      rw [hsi]
      rfl
    show GD.start (ix2 r j) idx (1 : Fin 2) + 0 + GD.offCoord (ix2 r j) (1 : Fin 2) = _
    rw [hs, ho]
    rfl

end gather

/-! ## The start index of a label -/

section label

/-- A label word is not negative, read signed. -/
theorem slt_zero_of_idOk {w : BitVec 32} (h : Spec.IdOk w) : IntOp.cmpi .slt w 0#32 = 0#1 := by
  obtain ⟨h0, _⟩ := h
  have : w.slt 0#32 = false := by
    rw [BitVec.slt_eq_decide]
    simp only [BitVec.toInt_zero, decide_eq_false_iff_not, not_lt]
    exact h0
  show BitVec.ofBool (w.slt 0#32) = 0#1
  rw [this]; rfl

/-- A label word, as a natural number, is below 92, and so is its signed value. -/
theorem toNat_of_idOk {w : BitVec 32} (h : Spec.IdOk w) : w.toInt.toNat = w.toNat ∧ w.toNat < 92 := by
  obtain ⟨h0, h1⟩ := h
  have := BitVec.toInt_eq_toNat_cond w
  have hb := w.isLt
  split at this <;> omega

variable (x2 : (⟨S1600, .i32⟩ : BufTy).Contents (Elt Ideal))

/-- For a label the wrapped start index is the label itself. -/
theorem v17_at (j : Fin 1600) (h : Spec.IdOk (x2 (ix1 j))) :
    val_main_v17 (F := Ideal) x2 (ix1 j) = x2 (ix1 j) := by
  rw [val_main_v17_apply, val_main_v14_apply, val_main_v13_apply, val_main_c_apply, slt_zero_of_idOk h]
  exact select_zero _ _

theorem v18_at (j : Fin 1600) (h : Spec.IdOk (x2 (ix1 j))) :
    val_main_v18 (F := Ideal) x2 (ix2 j (0 : Fin 1)) = x2 (ix1 j) := by
  rw [val_main_v18_apply, ← v17_at x2 j h]
  exact congrArg _ (funext fun a => Fin.ext (by match a with | ⟨0, _⟩ => rfl))

end label

/-! ## The softmax of a row of logits -/

section softmax
variable (x0 : (⟨S16x900x92, .f32⟩ : BufTy).Contents (Elt Ideal))

/-- The row of logits of query `r`. -/
abbrev logits (r : Fin 14400) : Fin 92 → EReal := fun k => val_main_v0 (F := Ideal) x0 (ix2 r k)

/-- Over row `r`, the index with class coordinate `k` inserted is `(r, k)`. -/
theorem lift_row (h : S14400x92.Reduces [1] S14400) (r : Fin 14400) (k : Fin (S14400x92.size 1)) :
    h.lift (ix1 r) k = ix2 r (⟨k.val, k.isLt⟩ : Fin 92) := by
  funext c; apply Fin.ext
  fin_cases c <;> rfl

/-- −∞ is neutral for the maximum. -/
theorem max_negInf (y : EReal) : max Spec.negInf y = y := by
  simp [Spec.negInf, Ideal.ofBits, Ideal.ieee]

/-- The reduce from −∞ over the classes is the row maximum. -/
theorem v1_at (r : Fin 14400) :
    val_main_v1 (F := Ideal) x0 (ix1 r) = Spec.rowMax (logits x0 r) := by
  have h : S14400x92.Reduces [1] S14400 := ⟨reducesTo_S14400x92_S14400_d1.1, Nat.one_pos, reducesTo_S14400x92_S14400_d1.2⟩
  unfold val_main_v1
  rw [Host.reduce_eq_fold_single FloatOps.maximumf _ _ reducesTo_S14400x92_S14400_d1 h h_S_]
  have hf : (val_main_v0 (F := Ideal) x0 ∘ h.lift (ix1 r)) = fun k : Fin 92 => val_main_v0 (F := Ideal) x0 (ix2 r k) :=
    funext fun k => congrArg (val_main_v0 (F := Ideal) x0) (lift_row h r k)
  exact congrArg (fun f => Finset.fold max Spec.negInf f (Finset.univ : Finset (Fin 92))) hf

theorem v3_at (r : Fin 14400) :
    val_main_v3 (F := Ideal) x0 (ix1 r) = Spec.rowMax (logits x0 r) := by
  rw [val_main_v3_apply, v1_at, val_main_v2_apply, val_main_cst_0_apply]
  exact max_negInf _

end softmax

section softmax2
variable (x0 : (⟨S16x900x92, .f32⟩ : BufTy).Contents (Elt Ideal))

/-- The row maximum broadcast along the classes reads the row's maximum. -/
theorem v5_at (r : Fin 14400) (k : Fin 92) :
    val_main_v5 (F := Ideal) x0 (ix2 r k) = Spec.rowMax (logits x0 r) := by
  rw [val_main_v5_apply, val_main_v4_apply, ← v3_at]
  exact congrArg _ (funext fun a => Fin.ext (by match a with | ⟨0, _⟩ => rfl))

/-- The shifted exponential of class `k`. -/
theorem v7_at (r : Fin 14400) (k : Fin 92) :
    val_main_v7 (F := Ideal) x0 (ix2 r k) = Spec.expo (logits x0 r) k := by
  rw [val_main_v7_apply, val_main_v6_apply, v5_at]
  rfl

/-- The sum of the shifted exponentials: the initial value is zero. -/
theorem v8_at (r : Fin 14400) :
    val_main_v8 (F := Ideal) x0 (ix1 r) = Spec.rowSum (logits x0 r) := by
  rw [val_main_v8_apply, val_main_cst_1_apply]
  show Ideal.ofBits .f32 0x00000000#32 + _ = _
  rw [Ideal.ofBits_zero_f32, zero_add]
  unfold Spec.rowSum
  refine Finset.sum_congr rfl fun k _ => ?_
  rw [← v7_at]
  exact congrArg _ (funext fun a => Fin.ext (by match a with | ⟨0, _⟩ => rfl | ⟨1, _⟩ => rfl))

theorem v10_at (r : Fin 14400) (k : Fin 92) :
    val_main_v10 (F := Ideal) x0 (ix2 r k) = Spec.rowSum (logits x0 r) := by
  rw [val_main_v10_apply, val_main_v9_apply, ← v8_at]
  exact congrArg _ (funext fun a => Fin.ext (by match a with | ⟨0, _⟩ => rfl))

/-- The softmax probability of class `k`. -/
theorem v11_at (r : Fin 14400) (k : Fin 92) :
    val_main_v11 (F := Ideal) x0 (ix2 r k) = Spec.prob (logits x0 r) k := by
  rw [val_main_v11_apply, v7_at, v10_at]
  rfl

end softmax2

/-! ## The class term -/

section classTerm
variable (x0 : (⟨S16x900x92, .f32⟩ : BufTy).Contents (Elt Ideal)) (x2 : (⟨S1600, .i32⟩ : BufTy).Contents (Elt Ideal))

/-- The gathered entry is the probability of the label's class. -/
theorem v19_at (r : Fin 14400) (j : Fin 1600) (h : Spec.IdOk (x2 (ix1 j))) :
    val_main_v19 (F := Ideal) x0 x2 (ix2 r j) = Spec.prob (logits x0 r) (Spec.classIdx (x2 (ix1 j))) := by
  unfold val_main_v19
  rw [show gather_S14400x92_S1600x1_S14400x1600_0_1_n_n_1_1_144001 = GD from rfl, gather_at, ← v11_at]
  refine congrArg (val_main_v11 (F := Ideal) x0) (congrArg (ix2 r) (Fin.ext ?_))
  show min (val_main_v18 (F := Ideal) x2 (ix2 j (0 : Fin 1))).toInt.toNat 91 = (x2 (ix1 j)).toNat % 92
  rw [v18_at x2 j h]
  obtain ⟨e, hlt⟩ := toNat_of_idOk h
  rw [e]; omega

/-- The negated entry, in the spelling `0 − p`. -/
theorem v20_at (r : Fin 14400) (j : Fin 1600) (h : Spec.IdOk (x2 (ix1 j))) :
    val_main_v20 (F := Ideal) x0 x2 (ix2 r j)
      = Spec.zero - Spec.prob (logits x0 r) (Spec.classIdx (x2 (ix1 j))) := by
  rw [val_main_v20_apply, v19_at x0 x2 r j h]
  show -(Spec.prob _ _) = Ideal.ofBits .f32 0x00000000#32 - _
  rw [Ideal.ofBits_zero_f32, zero_sub]

end classTerm

/-! ## The L1 distance of a query box and a target box -/

section l1
variable (x1 : (⟨S16x900x4, .f32⟩ : BufTy).Contents (Elt Ideal)) (x3 : (⟨S1600x4, .f32⟩ : BufTy).Contents (Elt Ideal))

/-- The box of query `r`, centre-size form. -/
abbrev qbox (r : Fin 14400) : Fin 4 → EReal := fun c => val_main_v12 (F := Ideal) x1 (ix2 r c)
/-- The box of target `j`, centre-size form. -/
abbrev tbox (j : Fin 1600) : Fin 4 → EReal := fun c => x3 (ix2 j c)

/-- One coordinate's absolute difference. -/
theorem v26_at (r : Fin 14400) (j : Fin 1600) (k : Fin 4) :
    val_main_v26 (F := Ideal) x1 x3 (ix3 r j k) = Spec.eabs (qbox x1 r k - tbox x3 j k) := by
  rw [val_main_v26_apply, val_main_v25_apply, val_main_v23_apply, val_main_v21_apply, val_main_v24_apply, val_main_v22_apply]
  have e1 : idx_main_v21 (idx_main_v23 (ix3 r j k)) = ix2 r k :=
    funext fun a => Fin.ext (by match a with | ⟨0, _⟩ => rfl | ⟨1, _⟩ => rfl)
  have e2 : idx_main_v22 (idx_main_v24 (ix3 r j k)) = ix2 j k :=
    funext fun a => Fin.ext (by match a with | ⟨0, _⟩ => rfl | ⟨1, _⟩ => rfl)
  rw [e1, e2]
  rfl

/-- The sum over the four coordinates, from a zero initial value. -/
theorem v27_at (r : Fin 14400) (j : Fin 1600) :
    val_main_v27 (F := Ideal) x1 x3 (ix2 r j) = Spec.l1 (qbox x1 r) (tbox x3 j) := by
  rw [val_main_v27_apply, val_main_cst_3_apply]
  show Ideal.ofBits .f32 0x00000000#32 + _ = _
  rw [Ideal.ofBits_zero_f32, zero_add, Fin.sum_univ_four]
  have e : ∀ k : Fin 4, idx_main_v27 (ix2 r j) k = ix3 r j k := fun k =>
    funext fun a => Fin.ext (by match a with | ⟨0, _⟩ => rfl | ⟨1, _⟩ => rfl | ⟨2, _⟩ => rfl)
  rw [e 0, e 1, e 2, e 3, v26_at, v26_at, v26_at, v26_at]
  rfl

end l1

/-! ## Corner boxes -/

section concat

/-- Four columns `[n, 1]` laid side by side, read at `(r, c)`: column `c` at row `r`. -/
theorem concat4_at {α : Type} {n : Nat} (y0 y1 y2 y3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1)
    (r : Fin n) (c : Fin 4) :
    concatenate (⟨2, ![n, 4]⟩ : Shape) 1 [⟨⟨2, ![n, 1]⟩, y0⟩, ⟨⟨2, ![n, 1]⟩, y1⟩, ⟨⟨2, ![n, 1]⟩, y2⟩, ⟨⟨2, ![n, 1]⟩, y3⟩] h (ix2 r c)
      = (match c with | ⟨0, _⟩ => y0 | ⟨1, _⟩ => y1 | ⟨2, _⟩ => y2 | ⟨3, _⟩ => y3) (ix2 r (0 : Fin 1)) := by
  have hi : ∀ (c : Fin 4) (b : Fin (⟨2, ![n, 1]⟩ : Shape).rank), b.cast (rfl : (2 : Nat) = 2) ≠ (1 : Fin 2) →
      ((ix2 r (0 : Fin 1)) b).val = ((ix2 r c) (b.cast (rfl : (2 : Nat) = 2))).val := fun c b hb => by
    match b with
    | ⟨0, _⟩ => rfl
    | ⟨1, _⟩ => exact absurd rfl hb
  let xs : List ((s : Shape) × (s.Idx → α)) :=
    [⟨⟨2, ![n, 1]⟩, y0⟩, ⟨⟨2, ![n, 1]⟩, y1⟩, ⟨⟨2, ![n, 1]⟩, y2⟩, ⟨⟨2, ![n, 1]⟩, y3⟩]
  match c with
  | ⟨0, _⟩ =>
    exact concatenate_apply_piece (t := ⟨2, ![n, 4]⟩) 1 xs h _ 0 (show (0 : Nat) < 4 by omega) ⟨2, ![n, 1]⟩ y0 rfl rfl 0 rfl (ix2 r (0 : Fin 1)) (hi _) rfl
  | ⟨1, _⟩ =>
    exact concatenate_apply_piece (t := ⟨2, ![n, 4]⟩) 1 xs h _ 1 (show (1 : Nat) < 4 by omega) ⟨2, ![n, 1]⟩ y1 rfl rfl 1 rfl (ix2 r (0 : Fin 1)) (hi _) rfl
  | ⟨2, _⟩ =>
    exact concatenate_apply_piece (t := ⟨2, ![n, 4]⟩) 1 xs h _ 2 (show (2 : Nat) < 4 by omega) ⟨2, ![n, 1]⟩ y2 rfl rfl 2 rfl (ix2 r (0 : Fin 1)) (hi _) rfl
  | ⟨3, _⟩ =>
    exact concatenate_apply_piece (t := ⟨2, ![n, 4]⟩) 1 xs h _ 3 (show (3 : Nat) < 4 by omega) ⟨2, ![n, 1]⟩ y3 rfl rfl 3 rfl (ix2 r (0 : Fin 1)) (hi _) rfl

end concat

section qcorners
variable (x1 : (⟨S16x900x4, .f32⟩ : BufTy).Contents (Elt Ideal))

/-- The four coordinates of query box `r`, each sliced out as a column and flattened. -/
theorem v29_at (r : Fin 14400) : val_main_v29 (F := Ideal) x1 (ix1 r) = qbox x1 r 0 := by
  rw [val_main_v29_apply, val_main_v28_apply]
  exact congrArg _ (funext fun a => Fin.ext (by match a with | ⟨0, _⟩ => exact Nat.div_one _ | ⟨1, _⟩ => rfl))
theorem v31_at (r : Fin 14400) : val_main_v31 (F := Ideal) x1 (ix1 r) = qbox x1 r 1 := by
  rw [val_main_v31_apply, val_main_v30_apply]
  exact congrArg _ (funext fun a => Fin.ext (by match a with | ⟨0, _⟩ => exact Nat.div_one _ | ⟨1, _⟩ => rfl))
theorem v33_at (r : Fin 14400) : val_main_v33 (F := Ideal) x1 (ix1 r) = qbox x1 r 2 := by
  rw [val_main_v33_apply, val_main_v32_apply]
  exact congrArg _ (funext fun a => Fin.ext (by match a with | ⟨0, _⟩ => exact Nat.div_one _ | ⟨1, _⟩ => rfl))
theorem v35_at (r : Fin 14400) : val_main_v35 (F := Ideal) x1 (ix1 r) = qbox x1 r 3 := by
  rw [val_main_v35_apply, val_main_v34_apply]
  exact congrArg _ (funext fun a => Fin.ext (by match a with | ⟨0, _⟩ => exact Nat.div_one _ | ⟨1, _⟩ => rfl))

/-- The four corners of query box `r`. -/
theorem v38_at (r : Fin 14400) : val_main_v38 (F := Ideal) x1 (ix1 r) = qbox x1 r 0 - Spec.half * qbox x1 r 2 := by
  rw [val_main_v38_apply, val_main_v37_apply, val_main_v36_apply, val_main_cst_4_apply, v29_at, v33_at]; rfl
theorem v41_at (r : Fin 14400) : val_main_v41 (F := Ideal) x1 (ix1 r) = qbox x1 r 1 - Spec.half * qbox x1 r 3 := by
  rw [val_main_v41_apply, val_main_v40_apply, val_main_v39_apply, val_main_cst_5_apply, v31_at, v35_at]; rfl
theorem v44_at (r : Fin 14400) : val_main_v44 (F := Ideal) x1 (ix1 r) = qbox x1 r 0 + Spec.half * qbox x1 r 2 := by
  rw [val_main_v44_apply, val_main_v43_apply, val_main_v42_apply, val_main_cst_6_apply, v29_at, v33_at]; rfl
theorem v47_at (r : Fin 14400) : val_main_v47 (F := Ideal) x1 (ix1 r) = qbox x1 r 1 + Spec.half * qbox x1 r 3 := by
  rw [val_main_v47_apply, val_main_v46_apply, val_main_v45_apply, val_main_cst_7_apply, v31_at, v35_at]; rfl

/-- The corner box of query `r`, read at corner `c`. -/
theorem v52_at (r : Fin 14400) (c : Fin 4) :
    val_main_v52 (F := Ideal) x1 (ix2 r c) = Spec.xyxy (qbox x1 r) c := by
  unfold val_main_v52
  refine (concat4_at (n := 14400) _ _ _ _ _ r c).trans ?_
  have e : ∀ i : S14400x1.Idx, i = ix2 r (0 : Fin 1) → (fun a => match a with | ⟨0, _⟩ => ⟨(i 0).val, (i 0).isLt⟩ : S14400.Idx) = ix1 r := by
    intro i hi; subst hi
    exact funext fun a => Fin.ext (by match a with | ⟨0, _⟩ => rfl)
  match c with
  | ⟨0, _⟩ =>
    show val_main_v48 (F := Ideal) x1 (ix2 r (0 : Fin 1)) = _
    rw [val_main_v48_apply, show idx_main_v48 (ix2 r (0 : Fin 1)) = ix1 r from e _ rfl, v38_at]; rfl
  | ⟨1, _⟩ =>
    show val_main_v49 (F := Ideal) x1 (ix2 r (0 : Fin 1)) = _
    rw [val_main_v49_apply, show idx_main_v49 (ix2 r (0 : Fin 1)) = ix1 r from e _ rfl, v41_at]; rfl
  | ⟨2, _⟩ =>
    show val_main_v50 (F := Ideal) x1 (ix2 r (0 : Fin 1)) = _
    rw [val_main_v50_apply, show idx_main_v50 (ix2 r (0 : Fin 1)) = ix1 r from e _ rfl, v44_at]; rfl
  | ⟨3, _⟩ =>
    show val_main_v51 (F := Ideal) x1 (ix2 r (0 : Fin 1)) = _
    rw [val_main_v51_apply, show idx_main_v51 (ix2 r (0 : Fin 1)) = ix1 r from e _ rfl, v47_at]; rfl

end qcorners

section tcorners
variable (x3 : (⟨S1600x4, .f32⟩ : BufTy).Contents (Elt Ideal))

/-- The four coordinates of target box `j`, each sliced out as a column and flattened. -/
theorem v54_at (j : Fin 1600) : val_main_v54 (F := Ideal) x3 (ix1 j) = tbox x3 j 0 := by
  rw [val_main_v54_apply, val_main_v53_apply]
  exact congrArg _ (funext fun a => Fin.ext (by match a with | ⟨0, _⟩ => exact Nat.div_one _ | ⟨1, _⟩ => rfl))
theorem v56_at (j : Fin 1600) : val_main_v56 (F := Ideal) x3 (ix1 j) = tbox x3 j 1 := by
  rw [val_main_v56_apply, val_main_v55_apply]
  exact congrArg _ (funext fun a => Fin.ext (by match a with | ⟨0, _⟩ => exact Nat.div_one _ | ⟨1, _⟩ => rfl))
theorem v58_at (j : Fin 1600) : val_main_v58 (F := Ideal) x3 (ix1 j) = tbox x3 j 2 := by
  rw [val_main_v58_apply, val_main_v57_apply]
  exact congrArg _ (funext fun a => Fin.ext (by match a with | ⟨0, _⟩ => exact Nat.div_one _ | ⟨1, _⟩ => rfl))
theorem v60_at (j : Fin 1600) : val_main_v60 (F := Ideal) x3 (ix1 j) = tbox x3 j 3 := by
  rw [val_main_v60_apply, val_main_v59_apply]
  exact congrArg _ (funext fun a => Fin.ext (by match a with | ⟨0, _⟩ => exact Nat.div_one _ | ⟨1, _⟩ => rfl))

/-- The four corners of target box `j`. -/
theorem v63_at (j : Fin 1600) : val_main_v63 (F := Ideal) x3 (ix1 j) = tbox x3 j 0 - Spec.half * tbox x3 j 2 := by
  rw [val_main_v63_apply, val_main_v62_apply, val_main_v61_apply, val_main_cst_8_apply, v54_at, v58_at]; rfl
theorem v66_at (j : Fin 1600) : val_main_v66 (F := Ideal) x3 (ix1 j) = tbox x3 j 1 - Spec.half * tbox x3 j 3 := by
  rw [val_main_v66_apply, val_main_v65_apply, val_main_v64_apply, val_main_cst_9_apply, v56_at, v60_at]; rfl
theorem v69_at (j : Fin 1600) : val_main_v69 (F := Ideal) x3 (ix1 j) = tbox x3 j 0 + Spec.half * tbox x3 j 2 := by
  rw [val_main_v69_apply, val_main_v68_apply, val_main_v67_apply, val_main_cst_10_apply, v54_at, v58_at]; rfl
theorem v72_at (j : Fin 1600) : val_main_v72 (F := Ideal) x3 (ix1 j) = tbox x3 j 1 + Spec.half * tbox x3 j 3 := by
  rw [val_main_v72_apply, val_main_v71_apply, val_main_v70_apply, val_main_cst_11_apply, v56_at, v60_at]; rfl

/-- The corner box of target `j`, read at corner `c`. -/
theorem v77_at (j : Fin 1600) (c : Fin 4) :
    val_main_v77 (F := Ideal) x3 (ix2 j c) = Spec.xyxy (tbox x3 j) c := by
  unfold val_main_v77
  refine (concat4_at (n := 1600) _ _ _ _ _ j c).trans ?_
  have e : ∀ i : S1600x1.Idx, i = ix2 j (0 : Fin 1) → (fun a => match a with | ⟨0, _⟩ => ⟨(i 0).val, (i 0).isLt⟩ : S1600.Idx) = ix1 j := by
    intro i hi; subst hi
    exact funext fun a => Fin.ext (by match a with | ⟨0, _⟩ => rfl)
  match c with
  | ⟨0, _⟩ =>
    show val_main_v73 (F := Ideal) x3 (ix2 j (0 : Fin 1)) = _
    rw [val_main_v73_apply, show idx_main_v73 (ix2 j (0 : Fin 1)) = ix1 j from e _ rfl, v63_at]; rfl
  | ⟨1, _⟩ =>
    show val_main_v74 (F := Ideal) x3 (ix2 j (0 : Fin 1)) = _
    rw [val_main_v74_apply, show idx_main_v74 (ix2 j (0 : Fin 1)) = ix1 j from e _ rfl, v66_at]; rfl
  | ⟨2, _⟩ =>
    show val_main_v75 (F := Ideal) x3 (ix2 j (0 : Fin 1)) = _
    rw [val_main_v75_apply, show idx_main_v75 (ix2 j (0 : Fin 1)) = ix1 j from e _ rfl, v69_at]; rfl
  | ⟨3, _⟩ =>
    show val_main_v76 (F := Ideal) x3 (ix2 j (0 : Fin 1)) = _
    rw [val_main_v76_apply, show idx_main_v76 (ix2 j (0 : Fin 1)) = ix1 j from e _ rfl, v72_at]; rfl

end tcorners

/-! ## Areas, intersection, union, hull and the generalized IoU -/

section giou
variable (x1 : (⟨S16x900x4, .f32⟩ : BufTy).Contents (Elt Ideal)) (x3 : (⟨S1600x4, .f32⟩ : BufTy).Contents (Elt Ideal))

/-- One corner of query `r` sliced out as a column and flattened. -/
theorem v79_at (r : Fin 14400) : val_main_v79 (F := Ideal) x1 (ix1 r) = Spec.xyxy (qbox x1 r) 2 := by
  rw [val_main_v79_apply, val_main_v78_apply, ← v52_at]
  exact congrArg _ (funext fun a => Fin.ext (by match a with | ⟨0, _⟩ => exact Nat.div_one _ | ⟨1, _⟩ => rfl))
theorem v81_at (r : Fin 14400) : val_main_v81 (F := Ideal) x1 (ix1 r) = Spec.xyxy (qbox x1 r) 0 := by
  rw [val_main_v81_apply, val_main_v80_apply, ← v52_at]
  exact congrArg _ (funext fun a => Fin.ext (by match a with | ⟨0, _⟩ => exact Nat.div_one _ | ⟨1, _⟩ => rfl))
theorem v84_at (r : Fin 14400) : val_main_v84 (F := Ideal) x1 (ix1 r) = Spec.xyxy (qbox x1 r) 3 := by
  rw [val_main_v84_apply, val_main_v83_apply, ← v52_at]
  exact congrArg _ (funext fun a => Fin.ext (by match a with | ⟨0, _⟩ => exact Nat.div_one _ | ⟨1, _⟩ => rfl))
theorem v86_at (r : Fin 14400) : val_main_v86 (F := Ideal) x1 (ix1 r) = Spec.xyxy (qbox x1 r) 1 := by
  rw [val_main_v86_apply, val_main_v85_apply, ← v52_at]
  exact congrArg _ (funext fun a => Fin.ext (by match a with | ⟨0, _⟩ => exact Nat.div_one _ | ⟨1, _⟩ => rfl))

/-- The area of query box `r`. -/
theorem v88_at (r : Fin 14400) : val_main_v88 (F := Ideal) x1 (ix1 r) = Spec.area (Spec.xyxy (qbox x1 r)) := by
  rw [val_main_v88_apply, val_main_v82_apply, val_main_v87_apply, v79_at, v81_at, v84_at, v86_at]; rfl

/-- One corner of target `j` sliced out as a column and flattened. -/
theorem v90_at (j : Fin 1600) : val_main_v90 (F := Ideal) x3 (ix1 j) = Spec.xyxy (tbox x3 j) 2 := by
  rw [val_main_v90_apply, val_main_v89_apply, ← v77_at]
  exact congrArg _ (funext fun a => Fin.ext (by match a with | ⟨0, _⟩ => exact Nat.div_one _ | ⟨1, _⟩ => rfl))
theorem v92_at (j : Fin 1600) : val_main_v92 (F := Ideal) x3 (ix1 j) = Spec.xyxy (tbox x3 j) 0 := by
  rw [val_main_v92_apply, val_main_v91_apply, ← v77_at]
  exact congrArg _ (funext fun a => Fin.ext (by match a with | ⟨0, _⟩ => exact Nat.div_one _ | ⟨1, _⟩ => rfl))
theorem v95_at (j : Fin 1600) : val_main_v95 (F := Ideal) x3 (ix1 j) = Spec.xyxy (tbox x3 j) 3 := by
  rw [val_main_v95_apply, val_main_v94_apply, ← v77_at]
  exact congrArg _ (funext fun a => Fin.ext (by match a with | ⟨0, _⟩ => exact Nat.div_one _ | ⟨1, _⟩ => rfl))
theorem v97_at (j : Fin 1600) : val_main_v97 (F := Ideal) x3 (ix1 j) = Spec.xyxy (tbox x3 j) 1 := by
  rw [val_main_v97_apply, val_main_v96_apply, ← v77_at]
  exact congrArg _ (funext fun a => Fin.ext (by match a with | ⟨0, _⟩ => exact Nat.div_one _ | ⟨1, _⟩ => rfl))

/-- The area of target box `j`. -/
theorem v99_at (j : Fin 1600) : val_main_v99 (F := Ideal) x3 (ix1 j) = Spec.area (Spec.xyxy (tbox x3 j)) := by
  rw [val_main_v99_apply, val_main_v93_apply, val_main_v98_apply, v90_at, v92_at, v95_at, v97_at]; rfl

/-- The low corners (columns 0, 1) and the high corners (columns 2, 3) of both boxes, broadcast over the pairs. -/
theorem v104_at (r : Fin 14400) (j : Fin 1600) (d : Fin 2) :
    val_main_v104 (F := Ideal) x1 (ix3 r j d) = Spec.xyxy (qbox x1 r) ⟨d.val, by omega⟩ := by
  rw [val_main_v104_apply, val_main_v101_apply, val_main_v100_apply, ← v52_at]
  exact congrArg _ (funext fun a => Fin.ext (by match a with | ⟨0, _⟩ => rfl | ⟨1, _⟩ => rfl))
theorem v105_at (r : Fin 14400) (j : Fin 1600) (d : Fin 2) :
    val_main_v105 (F := Ideal) x3 (ix3 r j d) = Spec.xyxy (tbox x3 j) ⟨d.val, by omega⟩ := by
  rw [val_main_v105_apply, val_main_v103_apply, val_main_v102_apply, ← v77_at]
  exact congrArg _ (funext fun a => Fin.ext (by match a with | ⟨0, _⟩ => rfl | ⟨1, _⟩ => rfl))
theorem v111_at (r : Fin 14400) (j : Fin 1600) (d : Fin 2) :
    val_main_v111 (F := Ideal) x1 (ix3 r j d) = Spec.xyxy (qbox x1 r) ⟨2 + d.val, by omega⟩ := by
  rw [val_main_v111_apply, val_main_v108_apply, val_main_v107_apply, ← v52_at]
  exact congrArg _ (funext fun a => Fin.ext (by match a with | ⟨0, _⟩ => rfl | ⟨1, _⟩ => rfl))
theorem v112_at (r : Fin 14400) (j : Fin 1600) (d : Fin 2) :
    val_main_v112 (F := Ideal) x3 (ix3 r j d) = Spec.xyxy (tbox x3 j) ⟨2 + d.val, by omega⟩ := by
  rw [val_main_v112_apply, val_main_v110_apply, val_main_v109_apply, ← v77_at]
  exact congrArg _ (funext fun a => Fin.ext (by match a with | ⟨0, _⟩ => rfl | ⟨1, _⟩ => rfl))

/-- One side of the intersection rectangle, clipped at zero. -/
theorem v115_at (r : Fin 14400) (j : Fin 1600) (d : Fin 2) :
    val_main_v115 (F := Ideal) x1 x3 (ix3 r j d)
      = max Spec.zero (min (Spec.xyxy (qbox x1 r) ⟨2 + d.val, by omega⟩) (Spec.xyxy (tbox x3 j) ⟨2 + d.val, by omega⟩)
          - max (Spec.xyxy (qbox x1 r) ⟨d.val, by omega⟩) (Spec.xyxy (tbox x3 j) ⟨d.val, by omega⟩)) := by
  rw [val_main_v115_apply, val_main_call0_v1_apply, val_main_call0_v0_apply, val_main_cst_12_apply,
    val_main_v114_apply, val_main_v113_apply, val_main_v106_apply, v104_at, v105_at, v111_at, v112_at]
  rfl

/-- Row-major position `r · 1600 + j` splits back into `(r, j)`. -/
theorem split_pair (r : Fin 14400) (j : Fin 1600) :
    (r.val * 1600 + j.val) / 1600 = r.val ∧ (r.val * 1600 + j.val) / 1 % 1600 = j.val := by
  have := r.isLt; have := j.isLt
  constructor <;> omega

theorem v117_at (r : Fin 14400) (j : Fin 1600) :
    val_main_v117 (F := Ideal) x1 x3 (ix2 r j) = val_main_v115 (F := Ideal) x1 x3 (ix3 r j (0 : Fin 2)) := by
  rw [val_main_v117_apply, val_main_v116_apply]
  exact congrArg _ (funext fun a => Fin.ext (by
    match a with
    | ⟨0, _⟩ => exact (split_pair r j).1
    | ⟨1, _⟩ => exact (split_pair r j).2
    | ⟨2, _⟩ => rfl))
theorem v119_at (r : Fin 14400) (j : Fin 1600) :
    val_main_v119 (F := Ideal) x1 x3 (ix2 r j) = val_main_v115 (F := Ideal) x1 x3 (ix3 r j (1 : Fin 2)) := by
  rw [val_main_v119_apply, val_main_v118_apply]
  exact congrArg _ (funext fun a => Fin.ext (by
    match a with
    | ⟨0, _⟩ => exact (split_pair r j).1
    | ⟨1, _⟩ => exact (split_pair r j).2
    | ⟨2, _⟩ => rfl))

/-- The intersection area. -/
theorem v120_at (r : Fin 14400) (j : Fin 1600) :
    val_main_v120 (F := Ideal) x1 x3 (ix2 r j) = Spec.inter (Spec.xyxy (qbox x1 r)) (Spec.xyxy (tbox x3 j)) := by
  rw [val_main_v120_apply, v117_at, v119_at, v115_at, v115_at]; rfl

/-- The union area. -/
theorem v126_at (r : Fin 14400) (j : Fin 1600) :
    val_main_v126 (F := Ideal) x1 x3 (ix2 r j) = Spec.union (Spec.xyxy (qbox x1 r)) (Spec.xyxy (tbox x3 j)) := by
  rw [val_main_v126_apply, val_main_v125_apply, val_main_v123_apply, val_main_v121_apply,
    val_main_v124_apply, val_main_v122_apply, v120_at]
  have e1 : idx_main_v121 (idx_main_v123 (ix2 r j)) = ix1 r :=
    funext fun a => Fin.ext (by match a with | ⟨0, _⟩ => rfl)
  have e2 : idx_main_v122 (idx_main_v124 (ix2 r j)) = ix1 j :=
    funext fun a => Fin.ext (by match a with | ⟨0, _⟩ => rfl)
  rw [e1, e2, v88_at, v99_at]; rfl

end giou

section hull
variable (x1 : (⟨S16x900x4, .f32⟩ : BufTy).Contents (Elt Ideal)) (x3 : (⟨S1600x4, .f32⟩ : BufTy).Contents (Elt Ideal))

/-- The low and the high corners of both boxes once more, for the enclosing box. -/
theorem v132_at (r : Fin 14400) (j : Fin 1600) (d : Fin 2) :
    val_main_v132 (F := Ideal) x1 (ix3 r j d) = Spec.xyxy (qbox x1 r) ⟨d.val, by omega⟩ := by
  rw [val_main_v132_apply, val_main_v129_apply, val_main_v128_apply, ← v52_at]
  exact congrArg _ (funext fun a => Fin.ext (by match a with | ⟨0, _⟩ => rfl | ⟨1, _⟩ => rfl))
theorem v133_at (r : Fin 14400) (j : Fin 1600) (d : Fin 2) :
    val_main_v133 (F := Ideal) x3 (ix3 r j d) = Spec.xyxy (tbox x3 j) ⟨d.val, by omega⟩ := by
  rw [val_main_v133_apply, val_main_v131_apply, val_main_v130_apply, ← v77_at]
  exact congrArg _ (funext fun a => Fin.ext (by match a with | ⟨0, _⟩ => rfl | ⟨1, _⟩ => rfl))
theorem v139_at (r : Fin 14400) (j : Fin 1600) (d : Fin 2) :
    val_main_v139 (F := Ideal) x1 (ix3 r j d) = Spec.xyxy (qbox x1 r) ⟨2 + d.val, by omega⟩ := by
  rw [val_main_v139_apply, val_main_v136_apply, val_main_v135_apply, ← v52_at]
  exact congrArg _ (funext fun a => Fin.ext (by match a with | ⟨0, _⟩ => rfl | ⟨1, _⟩ => rfl))
theorem v140_at (r : Fin 14400) (j : Fin 1600) (d : Fin 2) :
    val_main_v140 (F := Ideal) x3 (ix3 r j d) = Spec.xyxy (tbox x3 j) ⟨2 + d.val, by omega⟩ := by
  rw [val_main_v140_apply, val_main_v138_apply, val_main_v137_apply, ← v77_at]
  exact congrArg _ (funext fun a => Fin.ext (by match a with | ⟨0, _⟩ => rfl | ⟨1, _⟩ => rfl))

/-- One side of the enclosing rectangle, clipped at zero. -/
theorem v143_at (r : Fin 14400) (j : Fin 1600) (d : Fin 2) :
    val_main_v143 (F := Ideal) x1 x3 (ix3 r j d)
      = max Spec.zero (max (Spec.xyxy (qbox x1 r) ⟨2 + d.val, by omega⟩) (Spec.xyxy (tbox x3 j) ⟨2 + d.val, by omega⟩)
          - min (Spec.xyxy (qbox x1 r) ⟨d.val, by omega⟩) (Spec.xyxy (tbox x3 j) ⟨d.val, by omega⟩)) := by
  rw [val_main_v143_apply, val_main_call1_v1_apply, val_main_call1_v0_apply, val_main_cst_13_apply,
    val_main_v142_apply, val_main_v141_apply, val_main_v134_apply, v132_at, v133_at, v139_at, v140_at]
  rfl

theorem v145_at (r : Fin 14400) (j : Fin 1600) :
    val_main_v145 (F := Ideal) x1 x3 (ix2 r j) = val_main_v143 (F := Ideal) x1 x3 (ix3 r j (0 : Fin 2)) := by
  rw [val_main_v145_apply, val_main_v144_apply]
  exact congrArg _ (funext fun a => Fin.ext (by
    match a with
    | ⟨0, _⟩ => exact (split_pair r j).1
    | ⟨1, _⟩ => exact (split_pair r j).2
    | ⟨2, _⟩ => rfl))
theorem v147_at (r : Fin 14400) (j : Fin 1600) :
    val_main_v147 (F := Ideal) x1 x3 (ix2 r j) = val_main_v143 (F := Ideal) x1 x3 (ix3 r j (1 : Fin 2)) := by
  rw [val_main_v147_apply, val_main_v146_apply]
  exact congrArg _ (funext fun a => Fin.ext (by
    match a with
    | ⟨0, _⟩ => exact (split_pair r j).1
    | ⟨1, _⟩ => exact (split_pair r j).2
    | ⟨2, _⟩ => rfl))

/-- The area of the enclosing box. -/
theorem v148_at (r : Fin 14400) (j : Fin 1600) :
    val_main_v148 (F := Ideal) x1 x3 (ix2 r j) = Spec.hull (Spec.xyxy (qbox x1 r)) (Spec.xyxy (tbox x3 j)) := by
  rw [val_main_v148_apply, v145_at, v147_at, v143_at, v143_at]; rfl

/-- The generalized IoU. -/
theorem v151_at (r : Fin 14400) (j : Fin 1600) :
    val_main_v151 (F := Ideal) x1 x3 (ix2 r j) = Spec.giou (Spec.xyxy (qbox x1 r)) (Spec.xyxy (tbox x3 j)) := by
  rw [val_main_v151_apply, val_main_v127_apply, val_main_v150_apply, val_main_v149_apply,
    v120_at, v126_at, v148_at]; rfl

/-- Its negation, in the spelling `0 − g`. -/
theorem v152_at (r : Fin 14400) (j : Fin 1600) :
    val_main_v152 (F := Ideal) x1 x3 (ix2 r j) = Spec.zero - Spec.giou (Spec.xyxy (qbox x1 r)) (Spec.xyxy (tbox x3 j)) := by
  rw [val_main_v152_apply, v151_at]
  show -(Spec.giou _ _) = Ideal.ofBits .f32 0x00000000#32 - _
  rw [Ideal.ofBits_zero_f32, zero_sub]

end hull

/-! ## The cost -/

theorem ref_apply
    (x0 : (⟨S16x900x92, .f32⟩ : BufTy).Contents (Elt Ideal)) (x1 : (⟨S16x900x4, .f32⟩ : BufTy).Contents (Elt Ideal))
    (x2 : (⟨S1600, .i32⟩ : BufTy).Contents (Elt Ideal)) (x3 : (⟨S1600x4, .f32⟩ : BufTy).Contents (Elt Ideal))
    (hid : ∀ j : Fin 1600, Cert.Spec.IdOk (x2 (ix1 j))) (r : Fin 14400) (j : Fin 1600) :
    Read.val_main_v160 (F := Ideal) x0 x1 x2 x3 (ix2 r j)
      = Cert.Spec.cost (fun k => Read.val_main_v0 (F := Ideal) x0 (ix2 r k)) (fun c => Read.val_main_v12 (F := Ideal) x1 (ix2 r c))
          (x2 (ix1 j)) (fun c => x3 (ix2 j c)) := by
  rw [val_main_v160_apply, val_main_v157_apply, val_main_v154_apply, val_main_v156_apply, val_main_v159_apply,
    val_main_v153_apply, val_main_v155_apply, val_main_v158_apply,
    val_main_cst_14_apply, val_main_cst_15_apply, val_main_cst_16_apply,
    v27_at, v20_at x0 x2 r j (hid j), v152_at]
  rfl

end Cert.ReferenceIdeal.RefValue

end
-- ==== Proof.RefGlue.lean ====
import proofs.«427664_j48163763258165_1_alg».proof.Proof.RefValue
import proofs.«427664_j48163763258165_1_alg».proof.Proof.SpecMatrix

/-!
# The reference's result is the cost tensor

Index by index the reference's [14400, 1600] stage is the cost of a flattened query row against a target; so the
stage is the cost matrix, and its reshape — the reference's result — is the cost tensor.
-/

noncomputable section

namespace Cert.ReferenceIdeal.RefValue

open Cert.ReferenceIdeal Cert.ReferenceIdeal.Gen Cert.ReferenceIdeal.Read Idealize.ShloMosaic Idealize.ShloMosaic.ValueIdx

/-- The reference's last [14400, 1600] stage is the cost matrix of its arguments. -/
theorem ref_matrix
    (x0 : (⟨S16x900x92, .f32⟩ : BufTy).Contents (Elt Ideal)) (x1 : (⟨S16x900x4, .f32⟩ : BufTy).Contents (Elt Ideal))
    (x2 : (⟨S1600, .i32⟩ : BufTy).Contents (Elt Ideal)) (x3 : (⟨S1600x4, .f32⟩ : BufTy).Contents (Elt Ideal))
    (hid : ∀ j : Fin 1600, Cert.Spec.IdOk (x2 (ix1 j))) :
    Read.val_main_v160 (F := Ideal) x0 x1 x2 x3 = Cert.Spec.costMatrix x0 x1 x2 x3 := by
  funext i
  have hi : (i : S14400x1600.Idx) = ix2 (⟨(i 0).val, idx2_lt0 (n0 := 14400) (n1 := 1600) i⟩ : Fin 14400) (⟨(i 1).val, idx2_lt1 (n0 := 14400) (n1 := 1600) i⟩ : Fin 1600) := eq_ix2 i
  rw [hi, ref_apply x0 x1 x2 x3 hid]
  rfl

/-- The reference's result is the cost tensor of its arguments. -/
theorem ref_tensor
    (x0 : (⟨S16x900x92, .f32⟩ : BufTy).Contents (Elt Ideal)) (x1 : (⟨S16x900x4, .f32⟩ : BufTy).Contents (Elt Ideal))
    (x2 : (⟨S1600, .i32⟩ : BufTy).Contents (Elt Ideal)) (x3 : (⟨S1600x4, .f32⟩ : BufTy).Contents (Elt Ideal))
    (hid : ∀ j : Fin 1600, Cert.Spec.IdOk (x2 (ix1 j))) :
    Read.val_main_v161 (F := Ideal) x0 x1 x2 x3 = Cert.Spec.costTensor x0 x1 x2 x3 := by
  unfold Read.val_main_v161 Cert.Spec.costTensor
  rw [ref_matrix x0 x1 x2 x3 hid]

end Cert.ReferenceIdeal.RefValue

end
-- ==== Proof.PreIds.lean ====
import proofs.«427664_j48163763258165_1_alg».proof.Pre_finite_inputs
import proofs.«427664_j48163763258165_1_alg».proof.Proof.Spec
import Idealize.ShloMosaic.Lib.ValueIdx
import Idealize.ShloMosaic.Lib.ReduceAll

/-!
# The class ids are labels, read out of the precondition

The precondition is one truth value: the conjunction of four statements, three about floats being finite and the last
saying that every class id `x` satisfies `0 ≤ x` and `x < 92` as a signed 32-bit word. When the precondition holds, the
last conjunct holds; a conjunction over all ids holds at each id; and the two signed compares at id `j`, against the
scalars 0 and 92 repeated at every position, say `0 ≤ x.toInt` and `x.toInt < 92`.
-/

noncomputable section

namespace Cert.PreIds

open Idealize.ShloMosaic Idealize.ShloMosaic.ValueIdx

/-- Under the precondition, the class id at position `j` lies in `[0, 92)` read as a signed word. -/
theorem idOk_of_pre {F : FTy → Type} [FloatOps F] [Cert.Pre_finite_inputs.Facts]
    (a0 : FVec F Cert.Pre_finite_inputs.S16x900x92 .f32) (a1 : FVec F Cert.Pre_finite_inputs.S16x900x4 .f32)
    (a2 : IVec Cert.Pre_finite_inputs.S1600 32) (a3 : FVec F Cert.Pre_finite_inputs.S1600x4 .f32)
    (h : Cert.Pre_finite_inputs.fn (F := F) a0 a1 a2 a3 = fun _ => 1#1) (j : Fin 1600) :
    Cert.Spec.IdOk (a2 (ix1 j)) := by
  -- the precondition's one element, as a conjunction of four words
  have e := congrFun h ValueIdx.ix0
  dsimp only [Cert.Pre_finite_inputs.fn, Cert.Pre_finite_inputs.fn_part1] at e
  -- keep the last conjunct: the conjunction over all ids of (0 ≤ id) and (id < 92)
  obtain ⟨-, e4⟩ := IntOp.andi_eq_one.1 (show IntOp.andi _ _ = 1#1 from e)
  -- a conjunction over all ids that holds, holds at id j
  haveI : Subsingleton Cert.Pre_finite_inputs.S_.Idx := ⟨fun a b => funext fun d => d.elim0⟩
  have e5 := Host.reduce_andi_all _ _ _ _ _ e4 (ix1 j)
  obtain ⟨h0, h92⟩ := IntOp.andi_eq_one.1 (show IntOp.andi _ _ = 1#1 from e5)
  -- the two signed word compares, against the scalars 0 and 92 broadcast to every id
  have h0' : (0#32 : BitVec 32).toInt ≤ (a2 (ix1 j)).toInt := IntOp.cmpi_sge.1 h0
  have h92' : (a2 (ix1 j)).toInt < (92#32 : BitVec 32).toInt := IntOp.cmpi_slt.1 h92
  have z0 : (0#32 : BitVec 32).toInt = 0 := by decide
  have z92 : (92#32 : BitVec 32).toInt = 92 := by decide
  rw [z0] at h0'
  rw [z92] at h92'
  exact ⟨h0', h92'⟩

end Cert.PreIds

end
-- ==== Proof.lean ====
/-
  The matching cost of 14400 queries against 1600 targets, computed by a tiled kernel, against its array-level reference.

  Both programs compute, for query row r (class logits x_r, box b_r) and target j (class id c_j, box t_j),
      C[r, j] = 5 · ‖b_r − t_j‖₁  −  softmax(x_r)[c_j]  −  2 · GIoU(corners b_r, corners t_j).
  The kernel takes the class probability by contracting the softmax row against the column of a 0/1 matrix that has a
  one where the class index equals the id; the reference indexes the softmax row at the id. For an id in [0, 92) — the
  precondition's last conjunct — the contraction is the indexed entry, every other term being a product with zero, and
  the two programs agree term by term on the extended reals: no other law than 0 + x = x, 0 − x = −x and the
  regrouping of a four-term sum is used, so no finiteness of the inputs is needed.

  The kernel's region runs over thirty grid points, each writing the 480 × 1600 block of rows 480 t … 480 t + 479; the
  blocks tile the matrix, which the host then reshapes to [16, 900, 1600]. Its frame (it runs, faults nowhere, leaves
  its arguments unchanged) is proved for the word-level program and for its idealization from the body's triple and the
  launch theorem for "host operations, one region, host operations"; the reference's frame is its run with the result
  dropped. The idealization rewrote nothing, so it is preserved trivially.
-/
import proofs.«427664_j48163763258165_1_alg».proof.Defs
import proofs.«427664_j48163763258165_1_alg».proof.Proof.Gen.Kernel
import proofs.«427664_j48163763258165_1_alg».proof.Proof.Gen.KernelIdeal
import proofs.«427664_j48163763258165_1_alg».proof.Proof.Gen.ReferenceIdeal
import proofs.«427664_j48163763258165_1_alg».proof.Proof.Gen.ReferenceIdeal.Run
import proofs.«427664_j48163763258165_1_alg».proof.Proof.Gen.ReferenceIdeal.Read
import proofs.«427664_j48163763258165_1_alg».proof.Proof.Gen.Pre_finite_inputs
import proofs.«427664_j48163763258165_1_alg».proof.Proof.KRun
import proofs.«427664_j48163763258165_1_alg».proof.Proof.KIValue
import proofs.«427664_j48163763258165_1_alg».proof.Proof.RefGlue
import proofs.«427664_j48163763258165_1_alg».proof.Proof.PreIds
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The precondition makes every class id of the launch memory a label in [0, 92). -/
theorem ids_ok (m : (ℓ : Loc Cert.KernelIdeal.nD Cert.KernelIdeal.τ Cert.KernelIdeal.sig) → Buf (Elt Ideal) ℓ)
    (hpre : Cert.Pre_KernelIdeal m) : Cert.KernelIdeal.Hand.IdsOk m :=
  fun c j => Cert.PreIds.idOk_of_pre _ _ _ _ (hpre c) j

/-- Both idealized programs end with the cost tensor of the (agreeing) arguments. -/
theorem algebraic : Cert.algebraic_KernelIdeal_ReferenceIdeal := by
  intro m ρ m' ρ' hpre hagree
  have hid := ids_ok m hpre
  refine ⟨_, Cert.KernelIdeal.Hand.value_run m ρ hid, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v161_eq, (hagree c).1, (hagree c).2.1, (hagree c).2.2.1, (hagree c).2.2.2]
  exact Cert.ReferenceIdeal.RefValue.ref_tensor _ _ _ _ (fun j => hid c j)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
